-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x40 : Shape := ⟨2, ![100000, 40]⟩
abbrev S2x3200000 : Shape := ⟨2, ![2, 3200000]⟩
abbrev S40x64 : Shape := ⟨2, ![40, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S_ : Shape := ⟨0, ![]⟩

class Facts : Prop where
  bcast_S_S100000x40 : S_.BroadcastsInDim S100000x40 (![] : Fin 0 → Fin S100000x40.rank)
  reducesTo_S100000x40_S_d0_1 : S100000x40.ReducesTo [0, 1] S_
  h_S_ : 0 < S_.numel
  bcast_S_S40x64 : S_.BroadcastsInDim S40x64 (![] : Fin 0 → Fin S40x64.rank)
  reducesTo_S40x64_S_d0_1 : S40x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg8 : FVec F S3 .f32) (main_v33 : IVec S_ 1) : IVec S_ 1 :=
  let main_v34 : FVec F S3 .f32 := Host.absf main_arg8
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  main_v38

def fn_part1 {F : FTy → Type} [FloatOps F] (main_arg5 : FVec F S64 .f32) (main_arg6 : FVec F S64x3 .f32) (main_arg7 : FVec F S3 .f32) (main_arg8 : FVec F S3 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x3 .f32 := Host.absf main_arg6
  let main_cst_8 : FVec F S_ .f32 := constant S_ .f32 0x7F800000#32
  let main_v25 : FVec F S64x3 .f32 := broadcastInDim S64x3 ![] bcast_S_S64x3 main_cst_8
  let main_v26 : IVec S64x3 1 := cmpf .olt main_v24 main_v25
  let main_c_9 : IVec S_ 1 := constantI S_ 1 1#1
  let main_v27 : IVec S_ 1 := (fun x v => Host.reduce IntOp.andi x v reducesTo_S64x3_S_d0_1 h_S_) main_v26 main_c_9
  let main_v28 : IVec S_ 1 := andi main_v23 main_v27
  let main_v29 : FVec F S3 .f32 := Host.absf main_arg7
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  fn_part2 (F := F) main_arg8 main_v33

def fn {F : FTy → Type} [FloatOps F] (main_arg0 : FVec F S100000x40 .f32) (main_arg1 : IVec S2x3200000 32) (main_arg2 : FVec F S40x64 .f32) (main_arg3 : FVec F S64 .f32) (main_arg4 : FVec F S64x64 .f32) (main_arg5 : FVec F S64 .f32) (main_arg6 : FVec F S64x3 .f32) (main_arg7 : FVec F S3 .f32) (main_arg8 : FVec F S3 .f32) : IVec S_ 1 :=
  let main_v0 : FVec F S100000x40 .f32 := Host.absf main_arg0
  let main_cst : FVec F S_ .f32 := constant S_ .f32 0x7F800000#32
  let main_v1 : FVec F S100000x40 .f32 := broadcastInDim S100000x40 ![] bcast_S_S100000x40 main_cst
  let main_v2 : IVec S100000x40 1 := cmpf .olt main_v0 main_v1
  let main_c : IVec S_ 1 := constantI S_ 1 1#1
  let main_v3 : IVec S_ 1 := (fun x v => Host.reduce IntOp.andi x v reducesTo_S100000x40_S_d0_1 h_S_) main_v2 main_c
  let main_v4 : FVec F S40x64 .f32 := Host.absf main_arg2
  let main_cst_0 : FVec F S_ .f32 := constant S_ .f32 0x7F800000#32
  let main_v5 : FVec F S40x64 .f32 := broadcastInDim S40x64 ![] bcast_S_S40x64 main_cst_0
  let main_v6 : IVec S40x64 1 := cmpf .olt main_v4 main_v5
  let main_c_1 : IVec S_ 1 := constantI S_ 1 1#1
  let main_v7 : IVec S_ 1 := (fun x v => Host.reduce IntOp.andi x v reducesTo_S40x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_v13 main_v16
-- ==== Kernel.lean ====
abbrev S100000x40 : Shape := ⟨2, ![100000, 40]⟩
abbrev S2x3200000 : Shape := ⟨2, ![2, 3200000]⟩
abbrev S40x64 : Shape := ⟨2, ![40, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x40 : Shape := ⟨2, ![5000, 40]⟩
abbrev S5000x64 : Shape := ⟨2, ![5000, 64]⟩
abbrev S3300000x64 : Shape := ⟨2, ![3300000, 64]⟩
abbrev S1x64 : Shape := ⟨2, ![1, 64]⟩
abbrev S100000x3 : Shape := ⟨2, ![100000, 3]⟩
abbrev S5000x3 : Shape := ⟨2, ![5000, 3]⟩
abbrev S3300000x3 : Shape := ⟨2, ![3300000, 3]⟩
abbrev S1x3 : Shape := ⟨2, ![1, 3]⟩

abbrev nBuf : Space → Nat
  | .hbm => 108
  | .vmem => 16
  | .smem => 0
  | _ => 0

abbrev bufTy : (tb : Table) → Fin (tcTables nBuf tb) → BufTy
  | .hbm, ⟨0, _⟩ => ⟨S100000x40, .f32⟩
  | .hbm, ⟨1, _⟩ => ⟨S2x3200000, .i32⟩
  | .hbm, ⟨2, _⟩ => ⟨S40x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x3, .f32⟩
  | .hbm, ⟨7, _⟩ => ⟨S3, .f32⟩
  | .hbm, ⟨8, _⟩ => ⟨S3, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S100000, .i32⟩
  | .hbm, ⟨14, _⟩ => ⟨S3300000, .i32⟩
  | .hbm, ⟨15, _⟩ => ⟨S3300000, .i32⟩
  | .hbm, ⟨16, _⟩ => ⟨S_, .f32⟩
  | .hbm, ⟨17, _⟩ => ⟨S100000, .f32⟩
  | .hbm, ⟨18, _⟩ => ⟨S_, .i32⟩
  | .hbm, ⟨19, _⟩ => ⟨S3300000, .i32⟩
  | .hbm, ⟨20, _⟩ => ⟨S3300000, .i1⟩
  | .hbm, ⟨21, _⟩ => ⟨S_, .i32⟩
  | .hbm, ⟨22, _⟩ => ⟨S3300000, .i32⟩
  | .hbm, ⟨23, _⟩ => ⟨S3300000, .i32⟩
  | .hbm, ⟨24, _⟩ => ⟨S3300000, .i32⟩
  | .hbm, ⟨25, _⟩ => ⟨S3300000x1, .i32⟩
  | .hbm, ⟨26, _⟩ => ⟨S_, .f32⟩
  | .hbm, ⟨27, _⟩ => ⟨S3300000, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x64, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x64, .f32⟩
  | .hbm, ⟨59, _⟩ => ⟨S3300000x1, .f32⟩
  | .hbm, ⟨60, _⟩ => ⟨S3300000x64, .f32⟩
  | .hbm, ⟨61, _⟩ => ⟨S3300000x64, .f32⟩
  | .hbm, ⟨62, _⟩ => ⟨S_, .f32⟩
  | .hbm, ⟨63, _⟩ => ⟨S100000x64, .f32⟩
  | .hbm, ⟨64, _⟩ => ⟨S_, .i32⟩
  | .hbm, ⟨65, _⟩ => ⟨S3300000, .i32⟩
  | .hbm, ⟨66, _⟩ => ⟨S3300000, .i1⟩
  | .hbm, ⟨67, _⟩ => ⟨S_, .i32⟩
  | .hbm, ⟨68, _⟩ => ⟨S3300000, .i32⟩
  | .hbm, ⟨69, _⟩ => ⟨S3300000, .i32⟩
  | .hbm, ⟨70, _⟩ => ⟨S3300000, .i32⟩
  | .hbm, ⟨71, _⟩ => ⟨S3300000x1, .i32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S100000x3, .f32⟩
  | .hbm, ⟨79, _⟩ => ⟨S_, .i32⟩
  | .hbm, ⟨80, _⟩ => ⟨S3300000, .i32⟩
  | .hbm, ⟨81, _⟩ => ⟨S3300000, .i1⟩
  | .hbm, ⟨82, _⟩ => ⟨S_, .i32⟩
  | .hbm, ⟨83, _⟩ => ⟨S3300000, .i32⟩
  | .hbm, ⟨84, _⟩ => ⟨S3300000, .i32⟩
  | .hbm, ⟨85, _⟩ => ⟨S3300000, .i32⟩
  | .hbm, ⟨86, _⟩ => ⟨S3300000x1, .i32⟩
  | .hbm, ⟨87, _⟩ => ⟨S3300000x3, .f32⟩
  | .hbm, ⟨88, _⟩ => ⟨S3300000x1, .f32⟩
  | .hbm, ⟨89, _⟩ => ⟨S3300000x3, .f32⟩
  | .hbm, ⟨90, _⟩ => ⟨S3300000x3, .f32⟩
  | .hbm, ⟨91, _⟩ => ⟨S_, .f32⟩
  | .hbm, ⟨92, _⟩ => ⟨S100000x3, .f32⟩
  | .hbm, ⟨93, _⟩ => ⟨S_, .i32⟩
  | .hbm, ⟨94, _⟩ => ⟨S3300000, .i32⟩
  | .hbm, ⟨95, _⟩ => ⟨S3300000, .i1⟩
  | .hbm, ⟨96, _⟩ => ⟨S_, .i32⟩
  | .hbm, ⟨97, _⟩ => ⟨S3300000, .i32⟩
  | .hbm, ⟨98, _⟩ => ⟨S3300000, .i32⟩
  | .hbm, ⟨99, _⟩ => ⟨S3300000, .i32⟩
  | .hbm, ⟨100, _⟩ => ⟨S3300000x1, .i32⟩
  | .hbm, ⟨101, _⟩ => ⟨S100000x3, .f32⟩
  | .hbm, ⟨102, _⟩ => ⟨S1x3, .f32⟩
  | .hbm, ⟨103, _⟩ => ⟨S100000x3, .f32⟩
  | .hbm, ⟨104, _⟩ => ⟨S100000x3, .f32⟩
  | .hbm, ⟨105, _⟩ => ⟨S1x3, .f32⟩
  | .hbm, ⟨106, _⟩ => ⟨S100000x3, .f32⟩
  | .hbm, ⟨107, _⟩ => ⟨S100000x3, .f32⟩
  | .local _ .vmem, ⟨0, _⟩ => ⟨S5000x40, .f32⟩
  | .local _ .vmem, ⟨1, _⟩ => ⟨S5000x40, .f32⟩
  | .local _ .vmem, ⟨2, _⟩ => ⟨S40x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x3, .f32⟩
  | .local _ .vmem, ⟨14, _⟩ => ⟨S5000x3, .f32⟩
  | .local _ .vmem, ⟨15, _⟩ => ⟨S5000x3, .f32⟩
  | _, _ => ⟨S100000x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_c_9 : Ref sig .tc := ⟨.hbm, 64, rfl⟩
abbrev main_v44 : Ref sig .tc := ⟨.hbm, 65, rfl⟩
abbrev main_v45 : Ref sig .tc := ⟨.hbm, 66, rfl⟩
abbrev main_c_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_c_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_13 : Ref sig .tc := ⟨.hbm, 91, rfl⟩
abbrev main_v67 : Ref sig .tc := ⟨.hbm, 92, rfl⟩
abbrev main_c_14 : Ref sig .tc := ⟨.hbm, 93, rfl⟩
abbrev main_v68 : Ref sig .tc := ⟨.hbm, 94, rfl⟩
abbrev main_v69 : Ref sig .tc := ⟨.hbm, 95, rfl⟩
abbrev main_c_15 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x3 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x3 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S_S3300000 : S_.BroadcastsInDim S3300000 (![] : Fin 0 → Fin S3300000.rank)
  bcast_S3300000_S3300000x1_0 : S3300000.BroadcastsInDim S3300000x1 (![0] : Fin 1 → Fin S3300000x1.rank)
  inb_S5000x40_S5000x40_0_0 : ∀ a, (![0, 0] : Fin 2 → Nat) a + S5000x40.size a ≤ S5000x40.size a
  h_S5000x40 : 0 < S5000x40.numel
  bitsLt_bf16_f32 : FTy.bits .bf16 < FTy.bits .f32
  inb_S40x64_S40x64_0_0 : ∀ a, (![0, 0] : Fin 2 → Nat) a + S40x64.size a ≤ S40x64.size a
  h_S40x64 : 0 < S40x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S64_S1x64 : S64.ShapeCasts S1x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  natLt_1_32 : 1 < 32
  inb_S64x3_S64x3_0_0 : ∀ a, (![0, 0] : Fin 2 → Nat) a + S64x3.size a ≤ S64x3.size a
  h_S64x3 : 0 < S64x3.numel
  inb_S5000x3_S5000x3_0_0 : ∀ a, (![0, 0] : Fin 2 → Nat) a + S5000x3.size a ≤ S5000x3.size a
  h_S5000x3 : 0 < S5000x3.numel
  bcast_S3300000x1_S3300000x3_0_1 : S3300000x1.BroadcastsInDim S3300000x3 (![0, 1] : Fin 2 → Fin S3300000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x40_S40x64_S5000x64_1_0_0_1_n_n_wf : DotDims.WF S5000x40 S40x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x64_S5000x64_1_0_0_1_n_n_wf : DotDims.WF S5000x64 S64x64 S5000x64 [1] [0] [0] [1] [] []
  dot_S5000x64_S64x3_S5000x3_1_0_0_1_n_n_wf : DotDims.WF S5000x64 S64x3 S5000x3 [1] [0] [0] [1] [] []
  gather_S100000x3_S3300000x1_S3300000x3_1_0_n_n_0_1_13_wf : GatherDims.WF S100000x3 S3300000x1 S3300000x3 [1] [0] [] [0] [] 1 ![1, 3]
  scatter_S100000x3_S3300000x1_S3300000x3_1_0_0_1_wf : ScatterDims.WF S100000x3 S3300000x1 S3300000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x40.size a ≤ S100000x40.size a
  hwx0_0 : ∀ i : grid0.Coords, EltTy.bits .f32 = 32 ∨ (Rect.block (s := S100000x40) S5000x40.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40x64.size a ≤ S40x64.size a
  hwx0_1 : ∀ i : grid0.Coords, EltTy.bits .f32 = 32 ∨ (Rect.block (s := S40x64) S40x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x3.size a ≤ S64x3.size a
  hwx2_1 : ∀ i : grid2.Coords, EltTy.bits .f32 = 32 ∨ (Rect.block (s := S64x3) S64x3.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x3.size a ≤ S100000x3.size a
  hwx2_2 : ∀ i : grid2.Coords, EltTy.bits .f32 = 32 ∨ (Rect.block (s := S100000x3) S5000x3.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x40_S40x64_S5000x64_1_0_0_1_n_n : DotDims S5000x40 S40x64 S5000x64 where
  lhsContracting := [1]
  rhsContracting := [0]
  lhsNonContracting := [0]
  rhsNonContracting := [1]
  lhsBatch := []
  rhsBatch := []
  wf := dot_S5000x40_S40x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x3_S5000x3_1_0_0_1_n_n : DotDims S5000x64 S64x3 S5000x3 where
  lhsContracting := [1]
  rhsContracting := [0]
  lhsNonContracting := [0]
  rhsNonContracting := [1]
  lhsBatch := []
  rhsBatch := []
  wf := dot_S5000x64_S64x3_S5000x3_1_0_0_1_n_n_wf
def gather_S100000x3_S3300000x1_S3300000x3_1_0_n_n_0_1_13 : GatherDims S100000x3 S3300000x1 S3300000x3 where
  offsetDims := [1]
  collapsedSliceDims := [0]
  operandBatchingDims := []
  startIndicesBatchingDims := []
  startIndexMap := [0]
  indexVectorDim := 1
  sliceSizes := ![1, 3]
  wf := gather_S100000x3_S3300000x1_S3300000x3_1_0_n_n_0_1_13_wf
def scatter_S100000x3_S3300000x1_S3300000x3_1_0_0_1 : ScatterDims S100000x3 S3300000x1 S3300000x3 where
  updateWindowDims := [1]
  insertedWindowDims := [0]
  scatterDimsToOperandDims := [0]
  indexVectorDim := 1
  wf := scatter_S100000x3_S3300000x1_S3300000x3_1_0_0_1_wf

abbrev win0_0 : Pipeline.Window sig grid0 :=
  Pipeline.Window.ofSpec (Memref.whole main_arg0) S5000x40.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S40x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x3.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S5000x3.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x40 : Shape := ⟨2, ![100000, 40]⟩
abbrev S2x3200000 : Shape := ⟨2, ![2, 3200000]⟩
abbrev S40x64 : Shape := ⟨2, ![40, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S1x3200000 : Shape := ⟨2, ![1, 3200000]⟩
abbrev S3200000 : Shape := ⟨1, ![3200000]⟩
abbrev S100000x64 : Shape := ⟨2, ![100000, 64]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S100000x3 : Shape := ⟨2, ![100000, 3]⟩
abbrev S3300000x3 : Shape := ⟨2, ![3300000, 3]⟩
abbrev S1x3 : Shape := ⟨2, ![1, 3]⟩

abbrev nBuf : Space → Nat
  | .hbm => 153
  | .vmem => 0
  | .smem => 0
  | _ => 0

abbrev hbmTy0_0 (i : Nat) : BufTy := match i % 128 with
  | 0 => ⟨S100000x40, .f32⟩
  | 1 => ⟨S2x3200000, .i32⟩
  | 2 => ⟨S40x64, .f32⟩
  | 3 => ⟨S64, .f32⟩
  | 4 => ⟨S64x64, .f32⟩
  | 5 => ⟨S64, .f32⟩
  | 6 => ⟨S64x3, .f32⟩
  | 7 => ⟨S3, .f32⟩
  | 8 => ⟨S3, .f32⟩
  | 9 => ⟨S1x3200000, .i32⟩
  | 10 => ⟨S3200000, .i32⟩
  | 11 => ⟨S1x3200000, .i32⟩
  | 12 => ⟨S3200000, .i32⟩
  | 13 => ⟨S100000x64, .f32⟩
  | 14 => ⟨S100000, .i32⟩
  | 15 => ⟨S3300000, .i32⟩
  | 16 => ⟨S3300000, .i32⟩
  | 17 => ⟨S_, .f32⟩
  | 18 => ⟨S100000, .f32⟩
  | 19 => ⟨S_, .i32⟩
  | 20 => ⟨S3300000, .i32⟩
  | 21 => ⟨S3300000, .i1⟩
  | 22 => ⟨S_, .i32⟩
  | 23 => ⟨S3300000, .i32⟩
  | 24 => ⟨S3300000, .i32⟩
  | 25 => ⟨S3300000, .i32⟩
  | 26 => ⟨S3300000x1, .i32⟩
  | 27 => ⟨S_, .f32⟩
  | 28 => ⟨S3300000, .f32⟩
  | 29 => ⟨S100000, .f32⟩
  | 30 => ⟨S100000, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x64, .f32⟩
  | 59 => ⟨S3300000x1, .f32⟩
  | 60 => ⟨S3300000x64, .f32⟩
  | 61 => ⟨S3300000x64, .f32⟩
  | 62 => ⟨S_, .f32⟩
  | 63 => ⟨S100000x64, .f32⟩
  | 64 => ⟨S_, .i32⟩
  | 65 => ⟨S3300000, .i32⟩
  | 66 => ⟨S3300000, .i1⟩
  | 67 => ⟨S_, .i32⟩
  | 68 => ⟨S3300000, .i32⟩
  | 69 => ⟨S3300000, .i32⟩
  | 70 => ⟨S3300000, .i32⟩
  | 71 => ⟨S3300000x1, .i32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S100000x64, .f32⟩
  | 80 => ⟨S1x64, .f32⟩
  | 81 => ⟨S100000x64, .f32⟩
  | 82 => ⟨S100000x64, .f32⟩
  | 83 => ⟨S_, .f32⟩
  | 84 => ⟨S100000x64, .f32⟩
  | 85 => ⟨S100000x64, .i1⟩
  | 86 => ⟨S100000x64, .f32⟩
  | 87 => ⟨S100000x3, .f32⟩
  | 88 => ⟨S100000, .i32⟩
  | 89 => ⟨S3300000, .i32⟩
  | 90 => ⟨S3300000, .i32⟩
  | 91 => ⟨S_, .f32⟩
  | 92 => ⟨S100000, .f32⟩
  | 93 => ⟨S_, .i32⟩
  | 94 => ⟨S3300000, .i32⟩
  | 95 => ⟨S3300000, .i1⟩
  | 96 => ⟨S_, .i32⟩
  | 97 => ⟨S3300000, .i32⟩
  | 98 => ⟨S3300000, .i32⟩
  | 99 => ⟨S3300000, .i32⟩
  | 100 => ⟨S3300000x1, .i32⟩
  | 101 => ⟨S_, .f32⟩
  | 102 => ⟨S3300000, .f32⟩
  | 103 => ⟨S100000, .f32⟩
  | 104 => ⟨S100000, .f32⟩
  | 105 => ⟨S_, .i32⟩
  | 106 => ⟨S3300000, .i32⟩
  | 107 => ⟨S3300000, .i1⟩
  | 108 => ⟨S_, .i32⟩
  | 109 => ⟨S3300000, .i32⟩
  | 110 => ⟨S3300000, .i32⟩
  | 111 => ⟨S3300000, .i32⟩
  | 112 => ⟨S3300000x1, .i32⟩
  | 113 => ⟨S3300000, .f32⟩
  | 114 => ⟨S_, .i32⟩
  | 115 => ⟨S3300000, .i32⟩
  | 116 => ⟨S3300000, .i1⟩
  | 117 => ⟨S_, .i32⟩
  | 118 => ⟨S3300000, .i32⟩
  | 119 => ⟨S3300000, .i32⟩
  | 120 => ⟨S3300000, .i32⟩
  | 121 => ⟨S3300000x1, .i32⟩
  | 122 => ⟨S3300000, .f32⟩
  | 123 => ⟨S3300000, .f32⟩
  | 124 => ⟨S_, .i32⟩
  | 125 => ⟨S3300000, .i32⟩
  | 126 => ⟨S3300000, .i1⟩
  | 127 => ⟨S_, .i32⟩
  | _ => ⟨S100000x40, .f32⟩

abbrev hbmTy0_1 (i : Nat) : BufTy := match i % 128 with
  | 0 => ⟨S3300000, .i32⟩
  | 1 => ⟨S3300000, .i32⟩
  | 2 => ⟨S3300000, .i32⟩
  | 3 => ⟨S3300000x1, .i32⟩
  | 4 => ⟨S3300000x3, .f32⟩
  | 5 => ⟨S3300000x1, .f32⟩
  | 6 => ⟨S3300000x3, .f32⟩
  | 7 => ⟨S3300000x3, .f32⟩
  | 8 => ⟨S_, .f32⟩
  | 9 => ⟨S100000x3, .f32⟩
  | 10 => ⟨S_, .i32⟩
  | 11 => ⟨S3300000, .i32⟩
  | 12 => ⟨S3300000, .i1⟩
  | 13 => ⟨S_, .i32⟩
  | 14 => ⟨S3300000, .i32⟩
  | 15 => ⟨S3300000, .i32⟩
  | 16 => ⟨S3300000, .i32⟩
  | 17 => ⟨S3300000x1, .i32⟩
  | 18 => ⟨S100000x3, .f32⟩
  | 19 => ⟨S1x3, .f32⟩
  | 20 => ⟨S100000x3, .f32⟩
  | 21 => ⟨S100000x3, .f32⟩
  | 22 => ⟨S1x3, .f32⟩
  | 23 => ⟨S100000x3, .f32⟩
  | 24 => ⟨S100000x3, .f32⟩
  | _ => ⟨S100000x40, .f32⟩

abbrev hbmTy (i : Nat) : BufTy := match i / 128 with
  | 0 => hbmTy0_0 i
  | 1 => hbmTy0_1 i
  | _ => ⟨S100000x40, .f32⟩

abbrev bufTy : (tb : Table) → Fin (tcTables nBuf tb) → BufTy
  | .hbm, ⟨i, _⟩ => hbmTy i
  | _, _ => ⟨S100000x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_c_9 : Ref sig .tc := ⟨.hbm, 64, rfl⟩
abbrev main_v44 : Ref sig .tc := ⟨.hbm, 65, rfl⟩
abbrev main_v45 : Ref sig .tc := ⟨.hbm, 66, rfl⟩
abbrev main_c_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call0_cst : Ref sig .tc := ⟨.hbm, 76, rfl⟩
abbrev main_call0_v0 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_12 : Ref sig .tc := ⟨.hbm, 91, rfl⟩
abbrev main_v66 : Ref sig .tc := ⟨.hbm, 92, rfl⟩
abbrev main_c_13 : Ref sig .tc := ⟨.hbm, 93, rfl⟩
abbrev main_v67 : Ref sig .tc := ⟨.hbm, 94, rfl⟩
abbrev main_v68 : Ref sig .tc := ⟨.hbm, 95, rfl⟩
abbrev main_c_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_15 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_c_16 : Ref sig .tc := ⟨.hbm, 105, rfl⟩
abbrev main_v76 : Ref sig .tc := ⟨.hbm, 106, rfl⟩
abbrev main_v77 : Ref sig .tc := ⟨.hbm, 107, rfl⟩
abbrev main_c_17 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_c_18 : Ref sig .tc := ⟨.hbm, 114, rfl⟩
abbrev main_v83 : Ref sig .tc := ⟨.hbm, 115, rfl⟩
abbrev main_v84 : Ref sig .tc := ⟨.hbm, 116, rfl⟩
abbrev main_c_19 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_c_20 : Ref sig .tc := ⟨.hbm, 124, rfl⟩
abbrev main_v91 : Ref sig .tc := ⟨.hbm, 125, rfl⟩
abbrev main_v92 : Ref sig .tc := ⟨.hbm, 126, rfl⟩
abbrev main_c_21 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_22 : Ref sig .tc := ⟨.hbm, 136, rfl⟩
abbrev main_v101 : Ref sig .tc := ⟨.hbm, 137, rfl⟩
abbrev main_c_23 : Ref sig .tc := ⟨.hbm, 138, rfl⟩
abbrev main_v102 : Ref sig .tc := ⟨.hbm, 139, rfl⟩
abbrev main_v103 : Ref sig .tc := ⟨.hbm, 140, rfl⟩
abbrev main_c_24 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S_S3300000 : S_.BroadcastsInDim S3300000 (![] : Fin 0 → Fin S3300000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x3_0_1 : S3300000x1.BroadcastsInDim S3300000x3 (![0, 1] : Fin 2 → Fin S3300000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  dot_S100000x40_S40x64_S100000x64_1_0_0_1_n_n_wf : DotDims.WF S100000x40 S40x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  dot_S100000x64_S64x3_S100000x3_1_0_0_1_n_n_wf : DotDims.WF S100000x64 S64x3 S100000x3 [1] [0] [0] [1] [] []
  gather_S100000x3_S3300000x1_S3300000x3_1_0_n_n_0_1_13_wf : GatherDims.WF S100000x3 S3300000x1 S3300000x3 [1] [0] [] [0] [] 1 ![1, 3]
  scatter_S100000x3_S3300000x1_S3300000x3_1_0_0_1_wf : ScatterDims.WF S100000x3 S3300000x1 S3300000x3 [1] [0] [0] 1

variable [Facts₀]

def dot_S100000x40_S40x64_S100000x64_1_0_0_1_n_n : DotDims S100000x40 S40x64 S100000x64 where
  lhsContracting := [1]
  rhsContracting := [0]
  lhsNonContracting := [0]
  rhsNonContracting := [1]
  lhsBatch := []
  rhsBatch := []
  wf := dot_S100000x40_S40x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x3_S100000x3_1_0_0_1_n_n : DotDims S100000x64 S64x3 S100000x3 where
  lhsContracting := [1]
  rhsContracting := [0]
  lhsNonContracting := [0]
  rhsNonContracting := [1]
  lhsBatch := []
  rhsBatch := []
  wf := dot_S100000x64_S64x3_S100000x3_1_0_0_1_n_n_wf
def gather_S100000x3_S3300000x1_S3300000x3_1_0_n_n_0_1_13 : GatherDims S100000x3 S3300000x1 S3300000x3 where
  offsetDims := [1]
  collapsedSliceDims := [0]
  operandBatchingDims := []
  startIndicesBatchingDims := []
  startIndexMap := [0]
  indexVectorDim := 1
  sliceSizes := ![1, 3]
  wf := gather_S100000x3_S3300000x1_S3300000x3_1_0_n_n_0_1_13_wf
def scatter_S100000x3_S3300000x1_S3300000x3_1_0_0_1 : ScatterDims S100000x3 S3300000x1 S3300000x3 where
  updateWindowDims := [1]
  insertedWindowDims := [0]
  scatterDimsToOperandDims := [0]
  indexVectorDim := 1
  wf := scatter_S100000x3_S3300000x1_S3300000x3_1_0_0_1_wf

class Facts : Prop extends Facts₀ where

variable [Facts]
-- ==== Proof.Stages.lean ====
/-
  The reference's three dense stages as functions of ANY input arrays.

  The reference computes, per node row `r`:
    h0[r, :]    = x[r, :] · W1                      (a matrix product, contraction over the 40 features)
    spike[r, j] = 1 if (max(a[r, :], 0) · Wf)[j] + bf[j] ≥ 1/2 else 0
    h2[r, :]    = spike[r, :] · W2
  with `a` the aggregated first layer. The generated per-operation stages (`Read.val_main_v4`, `val_main_v61`,
  `val_main_v62`) are these functions at the reference's own intermediate values; here they are restated over
  arbitrary operands, and each matrix product is read at an index as the finite sum over the contraction index.
  A product row depends only on the same row of its left operand, which is what lets a row-blocked kernel
  compute it block by block.
-/
import proofs.«176449_j77051713290427_1_alg».proof.Proof.Gen.ReferenceIdeal.Read
import Idealize.ShloMosaic.PureOps.Ideal.Laws
import Idealize.ShloMosaic.Lib.ValueIdx
import Idealize.ShloMosaic.Lib.Pipeline.Value

noncomputable section

namespace Cert.Stages

open Cert.ReferenceIdeal Cert.ReferenceIdeal.Gen Cert.ReferenceIdeal.Read Idealize.ShloMosaic

variable {F : FTy → Type} [FloatOps F]

/-- The spiking layer over any activation `h`, weights `wf` and bias ROW `row` (the bias as a [1, 64] array):
    relu, product with `wf`, the row added to every node, compared with 1/2, the truth value as 0 or 1. -/
def spike (h : (⟨S100000x64, .f32⟩ : BufTy).Contents (Elt F)) (wf : (⟨S64x64, .f32⟩ : BufTy).Contents (Elt F))
    (row : (⟨S1x64, .f32⟩ : BufTy).Contents (Elt F)) : (⟨S100000x64, .f32⟩ : BufTy).Contents (Elt F) :=
  uitofp .f32 (cmpf .oge (addf (Host.dotGeneral dot_S100000x64_S64x64_S100000x64_1_0_0_1_n_n none (maximumf h (val_main_call0_v0 (F := F))) wf)
    (broadcastInDim S100000x64 ![0, 1] bcast_S1x64_S100000x64_0_1 row)) (val_main_v59 (F := F)))

/-- The reference's spike array is `spike` of its aggregated first layer, its `Wf` and its bias as a row. -/
theorem val_main_v61_eq (x0 : (⟨S100000x40, .f32⟩ : BufTy).Contents (Elt F)) (x1 : (⟨S2x3200000, .i32⟩ : BufTy).Contents (Elt F))
    (x2 : (⟨S40x64, .f32⟩ : BufTy).Contents (Elt F)) (x3 : (⟨S64, .f32⟩ : BufTy).Contents (Elt F))
    (x4 : (⟨S64x64, .f32⟩ : BufTy).Contents (Elt F)) (x5 : (⟨S64, .f32⟩ : BufTy).Contents (Elt F)) :
    val_main_v61 (F := F) x0 x1 x2 x3 x4 x5 = spike (val_main_v53 (F := F) x0 x1 x2 x3) x4 (val_main_v56 (F := F) x5) := rfl

/-- The output projection over any spike array and weights. -/
def project (s : (⟨S100000x64, .f32⟩ : BufTy).Contents (Elt F)) (w : (⟨S64x3, .f32⟩ : BufTy).Contents (Elt F)) :
    (⟨S100000x3, .f32⟩ : BufTy).Contents (Elt F) :=
  Host.dotGeneral dot_S100000x64_S64x3_S100000x3_1_0_0_1_n_n none s w

/-- The reference's second-layer features are `project` of its spike array and its `W2`. -/
theorem val_main_v62_eq (x0 : (⟨S100000x40, .f32⟩ : BufTy).Contents (Elt F)) (x1 : (⟨S2x3200000, .i32⟩ : BufTy).Contents (Elt F))
    (x2 : (⟨S40x64, .f32⟩ : BufTy).Contents (Elt F)) (x3 : (⟨S64, .f32⟩ : BufTy).Contents (Elt F))
    (x4 : (⟨S64x64, .f32⟩ : BufTy).Contents (Elt F)) (x5 : (⟨S64, .f32⟩ : BufTy).Contents (Elt F)) (x6 : (⟨S64x3, .f32⟩ : BufTy).Contents (Elt F)) :
    val_main_v62 (F := F) x0 x1 x2 x3 x4 x5 x6 = project (val_main_v61 (F := F) x0 x1 x2 x3 x4 x5) x6 := rfl

/-! ## The products at an index, over the extended reals -/

/-- Entry (r, j) of `y · w` for a [100000, 64] by [64, 64] product: the sum over `k` of `y[r, k] · w[k, j]`. -/
theorem dot64_apply (y : (⟨S100000x64, .f32⟩ : BufTy).Contents (Elt Ideal)) (w : (⟨S64x64, .f32⟩ : BufTy).Contents (Elt Ideal)) (i : S100000x64.Idx) :
    Host.dotGeneral (F := Ideal) (φ₁ := .f32) (φ₂ := .f32) dot_S100000x64_S64x64_S100000x64_1_0_0_1_n_n none y w i
      = ∑ k : Fin 64, y (lidx_main_v55 i k) * w (ridx_main_v55 i k) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = lidx_main_v55 i k := funext fun a => Fin.ext (by
    match a with
    | ⟨0, _⟩ => exact lhs_main_v55_0 _ _
    | ⟨1, _⟩ => exact (lhs_main_v55_1 _ _).trans hk)
  have er : dot_S100000x64_S64x64_S100000x64_1_0_0_1_n_n.rhsIdx i ((ValueIdx.contrEquiv1 dot_S100000x64_S64x64_S100000x64_1_0_0_1_n_n 64 rfl rfl).symm k) = ridx_main_v55 i k := funext fun a => Fin.ext (by
    match a with
    | ⟨0, _⟩ => exact (rhs_main_v55_0 _ _).trans hk
    | ⟨1, _⟩ => exact rhs_main_v55_1 _ _)
  rw [el, er]

/-- Entry (r, j) of `s · w` for a [100000, 64] by [64, 3] product. -/
theorem project_apply (s : (⟨S100000x64, .f32⟩ : BufTy).Contents (Elt Ideal)) (w : (⟨S64x3, .f32⟩ : BufTy).Contents (Elt Ideal)) (i : S100000x3.Idx) :
    project (F := Ideal) s w i = ∑ k : Fin 64, s (lidx_main_v62 i k) * w (ridx_main_v62 i k) := by
  unfold project
  simp only [Host.dotGeneral]
  rw [Ideal.dotGeneral_apply, ← Equiv.sum_comp (ValueIdx.contrEquiv1 dot_S100000x64_S64x3_S100000x3_1_0_0_1_n_n 64 rfl rfl).symm]
  refine Finset.sum_congr rfl fun k _ => ?_
  have hk := ValueIdx.contrEquiv1_symm_val dot_S100000x64_S64x3_S100000x3_1_0_0_1_n_n 64 rfl rfl k
  have el : dot_S100000x64_S64x3_S100000x3_1_0_0_1_n_n.lhsIdx i ((ValueIdx.contrEquiv1 dot_S100000x64_S64x3_S100000x3_1_0_0_1_n_n 64 rfl rfl).symm k) = lidx_main_v62 i k := funext fun a => Fin.ext (by
    match a with
    | ⟨0, _⟩ => exact lhs_main_v62_0 _ _
    | ⟨1, _⟩ => exact (lhs_main_v62_1 _ _).trans hk)
  have er : dot_S100000x64_S64x3_S100000x3_1_0_0_1_n_n.rhsIdx i ((ValueIdx.contrEquiv1 dot_S100000x64_S64x3_S100000x3_1_0_0_1_n_n 64 rfl rfl).symm k) = ridx_main_v62 i k := funext fun a => Fin.ext (by
    match a with
    | ⟨0, _⟩ => exact (rhs_main_v62_0 _ _).trans hk
    | ⟨1, _⟩ => exact rhs_main_v62_1 _ _)
  rw [el, er]

/-- A one-bit truth value read as a number: zero-extended and read signed, or read unsigned, it is the same real. -/
theorem sitofp_zext_eq_uitofp (b : BitVec 1) :
    FloatOps.sitofp (F := Ideal) .f32 (b.setWidth 32) = FloatOps.uitofp (F := Ideal) .f32 b := by
  have h : b = 0#1 ∨ b = 1#1 := by
    have := b.isLt
    rcases Nat.lt_or_ge b.toNat 1 with h0 | h1
    · left; apply BitVec.eq_of_toNat_eq; simp; omega
    · right; apply BitVec.eq_of_toNat_eq; simp; omega
  rcases h with rfl | rfl <;> rfl

/-- Entry (r, j) of the spiking layer: the truth value of `Σ_k max(h[r, k], 0) · wf[k, j] + row[0, j] ≥ 1/2`. -/
theorem spike_apply (h : (⟨S100000x64, .f32⟩ : BufTy).Contents (Elt Ideal)) (wf : (⟨S64x64, .f32⟩ : BufTy).Contents (Elt Ideal))
    (row : (⟨S1x64, .f32⟩ : BufTy).Contents (Elt Ideal)) (i : S100000x64.Idx) :
    spike (F := Ideal) h wf row i
      = FloatOps.uitofp (F := Ideal) .f32 (FloatOps.cmpf .oge
          (FloatOps.addf (∑ k : Fin 64, FloatOps.maximumf (h (lidx_main_v55 i k)) (Ideal.ofBits .f32 0x00000000#32) * wf (ridx_main_v55 i k)) (row (idx_main_v57 i)))
          (Ideal.ofBits .f32 0x3F000000#32)) := by
  unfold spike
  show FloatOps.uitofp (F := Ideal) .f32 (FloatOps.cmpf .oge (FloatOps.addf (Host.dotGeneral (F := Ideal) (φ₁ := .f32) (φ₂ := .f32) dot_S100000x64_S64x64_S100000x64_1_0_0_1_n_n none (maximumf h (val_main_call0_v0 (F := Ideal))) wf i)
      (broadcastInDim S100000x64 ![0, 1] bcast_S1x64_S100000x64_0_1 row i)) (val_main_v59 (F := Ideal) i)) = _
  rw [dot64_apply, val_main_v59_apply, val_main_cst_11_apply,
    broadcastInDim_apply _ bcast_S1x64_S100000x64_0_1 row i (idx_main_v57 i) (fun a => match a with
      | ⟨0, _⟩ => rfl
      | ⟨1, _⟩ => rfl)]
  rfl

end Cert.Stages

end
-- ==== Proof.Region0.lean ====
/-
  The first dense layer, computed by the row-blocked kernel: node rows are cut into 20 blocks of 5000; at block `t`
  the kernel multiplies rows [5000 t, 5000 t + 5000) of `x` by the whole `W1`. A row of a matrix product depends only
  on the same row of the left factor, so block `t` of the kernel's output is block `t` of the whole product `x · W1`,
  and the 20 blocks tile the 100000 rows: the output array ends as the whole product.
  (The rounding of the factors to bf16 on the way into the product is the identity over the extended reals.)
-/
import proofs.«176449_j77051713290427_1_alg».proof.Proof.Gen.KernelIdeal.Frame
import proofs.«176449_j77051713290427_1_alg».proof.Proof.Stages
import Idealize.ShloMosaic.PureOps.Ideal.Laws
import Idealize.ShloMosaic.Lib.ValueIdx
import Idealize.ShloMosaic.Lib.Pipeline.Value

set_option maxRecDepth 16384

noncomputable section

namespace Cert.KernelIdeal.Region0

open Idealize.ShloMosaic Idealize.ShloMosaic.TcCoe Idealize.SL.Sem Cert.KernelIdeal Cert.KernelIdeal.Gen
open Idealize.ShloMosaic.Pipeline (Dat)

/-! ## The block product at an index -/

theorem lhs_0 (i : S5000x64.Idx) (q : dot_S5000x40_S40x64_S5000x64_1_0_0_1_n_n.contr.Idx) :
    (dot_S5000x40_S40x64_S5000x64_1_0_0_1_n_n.lhsIdx i q 0).val = (i 0).val := by
  unfold DotDims.lhsIdx
  rw [dif_neg (show ¬(0 : Fin S5000x40.rank) ∈ dot_S5000x40_S40x64_S5000x64_1_0_0_1_n_n.lhsBatch by decide), dif_pos (show (0 : Fin S5000x40.rank) ∈ dot_S5000x40_S40x64_S5000x64_1_0_0_1_n_n.lhsNonContracting by decide)]
  rfl
theorem lhs_1 (i : S5000x64.Idx) (q : dot_S5000x40_S40x64_S5000x64_1_0_0_1_n_n.contr.Idx) :
    (dot_S5000x40_S40x64_S5000x64_1_0_0_1_n_n.lhsIdx i q 1).val = (q ⟨0, by decide⟩).val :=
  dot_S5000x40_S40x64_S5000x64_1_0_0_1_n_n.lhsIdx_val_of_single rfl i q
theorem rhs_0 (i : S5000x64.Idx) (q : dot_S5000x40_S40x64_S5000x64_1_0_0_1_n_n.contr.Idx) :
    (dot_S5000x40_S40x64_S5000x64_1_0_0_1_n_n.rhsIdx i q 0).val = (q ⟨0, by decide⟩).val :=
  dot_S5000x40_S40x64_S5000x64_1_0_0_1_n_n.rhsIdx_val_of_single rfl i q
theorem rhs_1 (i : S5000x64.Idx) (q : dot_S5000x40_S40x64_S5000x64_1_0_0_1_n_n.contr.Idx) :
    (dot_S5000x40_S40x64_S5000x64_1_0_0_1_n_n.rhsIdx i q 1).val = (i 1).val := by
  unfold DotDims.rhsIdx
  rw [dif_neg (show ¬(1 : Fin S40x64.rank) ∈ dot_S5000x40_S40x64_S5000x64_1_0_0_1_n_n.rhsBatch by decide), dif_pos (show (1 : Fin S40x64.rank) ∈ dot_S5000x40_S40x64_S5000x64_1_0_0_1_n_n.rhsNonContracting by decide)]
  rfl

/-- Row `i 0`, feature `k` of the block of `x`. -/
abbrev rowAt (i : S5000x64.Idx) (k : Fin 40) : S5000x40.Idx := fun a => match a with
  | ⟨0, _⟩ => ⟨(i 0).val, (i 0).isLt⟩
  | ⟨1, _⟩ => ⟨k.val, k.isLt⟩
/-- Feature `k`, column `i 1` of `W1`. -/
abbrev colAt (i : S5000x64.Idx) (k : Fin 40) : S40x64.Idx := fun a => match a with
  | ⟨0, _⟩ => ⟨k.val, k.isLt⟩
  | ⟨1, _⟩ => ⟨(i 1).val, (i 1).isLt⟩

/-- The body's stored value at (p, j): the sum over the 40 features of block row p of `x` times column j of `W1`. -/
theorem pay_apply (x0 : Vec Ideal S5000x40 .f32) (x1 : Vec Ideal S40x64 .f32) (i : S5000x64.Idx) :
    k0_pay1 (F := Ideal) x0 x1 i = ∑ k : Fin 40, x0 (rowAt i k) * x1 (colAt i k) := by
  unfold k0_pay1
  simp only [matmul]
  rw [Ideal.matmul_constant_zero_apply, ← Equiv.sum_comp (ValueIdx.contrEquiv1 dot_S5000x40_S40x64_S5000x64_1_0_0_1_n_n 40 rfl rfl).symm]
  refine Finset.sum_congr rfl fun k _ => ?_
  have hk := ValueIdx.contrEquiv1_symm_val dot_S5000x40_S40x64_S5000x64_1_0_0_1_n_n 40 rfl rfl k
  have el : dot_S5000x40_S40x64_S5000x64_1_0_0_1_n_n.lhsIdx i ((ValueIdx.contrEquiv1 dot_S5000x40_S40x64_S5000x64_1_0_0_1_n_n 40 rfl rfl).symm k) = rowAt i k := funext fun a => Fin.ext (by
    match a with
    | ⟨0, _⟩ => exact lhs_0 _ _
    | ⟨1, _⟩ => exact (lhs_1 _ _).trans hk)
  have er : dot_S5000x40_S40x64_S5000x64_1_0_0_1_n_n.rhsIdx i ((ValueIdx.contrEquiv1 dot_S5000x40_S40x64_S5000x64_1_0_0_1_n_n 40 rfl rfl).symm k) = colAt i k := funext fun a => Fin.ext (by
    match a with
    | ⟨0, _⟩ => exact (rhs_0 _ _).trans hk
    | ⟨1, _⟩ => exact rhs_1 _ _)
  rw [el, er]
  rfl

/-! ## From blocks to the array -/

variable (V : (c : Dev nD) → (b : Ref sig .tc) → Buf (Elt Ideal) ((c : Thread nD τ).loc b))

theorem zero2 : (![0, 0] : Fin 2 → Nat) = fun _ => 0 := funext fun a => by fin_cases a <;> rfl

/-- The index maps over the grid: block `t` of `x` and of the output is row block `t`; `W1` is one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays the region finds. -/
theorem flushed_eq (c : Dev nD) (t : Fin cfg0.N) :
    (dat0 (F := Ideal) V c).flushed 2 t
      = ((cfg0.win 2).blk t).view.read (Elt Ideal) (Cert.ReferenceIdeal.Read.val_main_v4 (F := Ideal) (V c main_arg0) (V c main_arg2)) := by
  show (cfg0.win 2).cut (grid0.coords t) ((dat0 V c).after 2 t) = _
  rw [after0_2]
  unfold out0_2
  rw [View.canon_unit_zero zero2]
  simp only [View.ld_unit_zero (S := S5000x40) zero2, View.ld_unit_zero (S := S40x64) zero2]
  obtain ⟨e0, e1, e2, e3, e4, e5⟩ := idx_facts t
  funext j
  show k0_pay1 (F := Ideal) (iblk0 V c 0 t) (iblk0 V c 1 t) j
    = Cert.ReferenceIdeal.Read.val_main_v4 (F := Ideal) (V c main_arg0) (V c main_arg2) (((cfg0.win 2).blk t).view.emb j)
  refine (pay_apply (iblk0 V c 0 t) (iblk0 V c 1 t) j).trans ?_
  refine Eq.trans ?_ (Cert.ReferenceIdeal.Read.val_main_v4_apply _ _ _).symm
  refine Finset.sum_congr rfl fun k _ => ?_
  have h0 : ((cfg0.win 0).blk t).view.emb (rowAt j k) = Cert.ReferenceIdeal.Read.lidx_main_v4 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 40 + 1 * k.val = k.val; omega
  have h1 : ((cfg0.win 1).blk t).view.emb (colAt j k) = Cert.ReferenceIdeal.Read.ridx_main_v4 (((cfg0.win 2).blk t).view.emb j) k := by
    funext a; apply Fin.ext
    match a with
    | ⟨0, _⟩ => show win0_1.index t (0 : Fin 2) * 40 + 1 * k.val = k.val; omega
    | ⟨1, _⟩ => show win0_1.index t (1 : Fin 2) * 64 + 1 * (j 1).val = win0_2.index t (1 : Fin 2) * 64 + 1 * (j 1).val; omega
  have hA : iblk0 V c 0 t (rowAt j k) = V c main_arg0 (Cert.ReferenceIdeal.Read.lidx_main_v4 (((cfg0.win 2).blk t).view.emb j) k) := by
    show V c main_arg0 (((cfg0.win 0).blk t).view.emb (rowAt j k)) = _
    rw [h0]
  have hB : iblk0 V c 1 t (colAt j k) = V c main_arg2 (Cert.ReferenceIdeal.Read.ridx_main_v4 (((cfg0.win 2).blk t).view.emb j) k) := by
    show V c main_arg2 (((cfg0.win 1).blk t).view.emb (colAt j k)) = _
    rw [h1]
  rw [hA, hB]

/-- An index is in point `t`'s output block iff its row lies in [5000 t, 5000 t + 5000). -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Every row is in some point's block: row `r` in block `r / 5000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 5000, by show (i 0).val / 5000 < 20; omega⟩
  obtain ⟨e0, e1, e2, e3, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the region: the whole product of the arrays the region finds at `x` and `W1`. -/
theorem value (c : Dev nD) :
    (dat0 (F := Ideal) V c).arrAt 2 cfg0.N = Cert.ReferenceIdeal.Read.val_main_v4 (F := Ideal) (V c main_arg0) (V c main_arg2) :=
  (dat0 (F := Ideal) V c).arrAt_eq_of_cover 2 _ (fun t _ => flushed_eq V c t) (cover)

end Cert.KernelIdeal.Region0

end
-- ==== Proof.Region1.lean ====
/-
  The spiking layer, computed by the row-blocked kernel: at block `t` the kernel takes rows [5000 t, 5000 t + 5000) of
  the aggregated first layer `a`, applies relu, multiplies by the whole `Wf`, adds the bias row to every node, and
  stores 1 where the result is at least 1/2 and 0 elsewhere. Entry (r, j) is the truth value of
      Σ_k max(a[r, k], 0) · Wf[k, j] + bf[j] ≥ 1/2,
  which reads row r of `a` only, so block `t` of the kernel's output is block `t` of the reference's spike array, and the
  20 blocks tile the 100000 rows. The kernel turns the one-bit truth value into a float by zero-extending it to 32 bits
  and reading it signed, the reference by reading the bit unsigned: the same number.
-/
import proofs.«176449_j77051713290427_1_alg».proof.Proof.Gen.KernelIdeal.Frame
import proofs.«176449_j77051713290427_1_alg».proof.Proof.Stages
import Idealize.ShloMosaic.PureOps.Ideal.Laws
import Idealize.ShloMosaic.Lib.ValueIdx
import Idealize.ShloMosaic.Lib.Pipeline.Value

set_option maxRecDepth 16384

noncomputable section

namespace Cert.KernelIdeal.Region1

open Idealize.ShloMosaic Idealize.ShloMosaic.TcCoe Idealize.SL.Sem Cert.KernelIdeal Cert.KernelIdeal.Gen
open Idealize.ShloMosaic.Pipeline (Dat)

/-! ## The block's stored value at an index -/

theorem lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Row `i 0`, unit `k` of the block of activations. -/
abbrev rowAt (i : S5000x64.Idx) (k : Fin 64) : S5000x64.Idx := fun a => match a with
  | ⟨0, _⟩ => ⟨(i 0).val, (i 0).isLt⟩
  | ⟨1, _⟩ => ⟨k.val, k.isLt⟩
/-- Unit `k`, column `i 1` of `Wf`. -/
abbrev colAt (i : S5000x64.Idx) (k : Fin 64) : S64x64.Idx := fun a => match a with
  | ⟨0, _⟩ => ⟨k.val, k.isLt⟩
  | ⟨1, _⟩ => ⟨(i 1).val, (i 1).isLt⟩
/-- Column `i 1` of the bias row. -/
abbrev biasAt (i : S5000x64.Idx) : S1x64.Idx := fun a => match a with
  | ⟨0, _⟩ => ⟨0, Nat.one_pos⟩
  | ⟨1, _⟩ => ⟨(i 1).val, (i 1).isLt⟩

/-- The product of the rectified block with `Wf` at (p, j): the sum over the 64 units. -/
theorem prod_apply (x0 : Vec Ideal S5000x64 .f32) (x1 : Vec Ideal S64x64 .f32) (i : S5000x64.Idx) :
    matmul (F := Ideal) dot_S5000x64_S64x64_S5000x64_1_0_0_1_n_n none
        (truncf .bf16 (maximumf (shapeCast S5000x64 x0 shapeCasts_S5000x64_S5000x64) (broadcast S5000x64 (Scalar.ofBits (F := Ideal) .f32 0x00000000#32))) bitsLt_bf16_f32)
        (truncf .bf16 x1 bitsLt_bf16_f32) (constant S5000x64 .f32 0x00000000#32) i
      = ∑ k : Fin 64, FloatOps.maximumf (x0 (rowAt i k)) (Ideal.ofBits .f32 0x00000000#32) * x1 (colAt i k) := by
  simp only [matmul]
  rw [shapeCast_self, Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx i ((ValueIdx.contrEquiv1 dot_S5000x64_S64x64_S5000x64_1_0_0_1_n_n 64 rfl rfl).symm k) = rowAt i k := funext fun a => Fin.ext (by
    match a with
    | ⟨0, _⟩ => exact lhs_0 _ _
    | ⟨1, _⟩ => exact (lhs_1 _ _).trans hk)
  have er : dot_S5000x64_S64x64_S5000x64_1_0_0_1_n_n.rhsIdx i ((ValueIdx.contrEquiv1 dot_S5000x64_S64x64_S5000x64_1_0_0_1_n_n 64 rfl rfl).symm k) = colAt i k := funext fun a => Fin.ext (by
    match a with
    | ⟨0, _⟩ => exact (rhs_0 _ _).trans hk
    | ⟨1, _⟩ => exact rhs_1 _ _)
  rw [el, er]
  rfl

/-- The bias row broadcast over the block's rows, at (p, j): entry j of the row. -/
theorem bias_apply (x2 : Vec Ideal S1x64 .f32) (i : S5000x64.Idx) :
    broadcastTo S5000x64 (shapeCast S1x64 x2 shapeCasts_S1x64_S1x64) broadcasts_S1x64_S5000x64 i = x2 (biasAt i) := by
  rw [shapeCast_self]
  exact broadcastTo_apply x2 broadcasts_S1x64_S5000x64 i (biasAt i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

/-- The body's stored value at (p, j): the truth value of `Σ_k max(a[p, k], 0) · Wf[k, j] + row[0, j] ≥ 1/2` as 0 or 1. -/
theorem pay_apply (x0 : Vec Ideal S5000x64 .f32) (x1 : Vec Ideal S64x64 .f32) (x2 : Vec Ideal S1x64 .f32) (i : S5000x64.Idx) :
    k1_pay1 (F := Ideal) x0 x1 x2 i
      = FloatOps.uitofp (F := Ideal) .f32 (FloatOps.cmpf .oge
          (FloatOps.addf (∑ k : Fin 64, FloatOps.maximumf (x0 (rowAt i k)) (Ideal.ofBits .f32 0x00000000#32) * x1 (colAt i k)) (x2 (biasAt i)))
          (Ideal.ofBits .f32 0x3F000000#32)) := by
  unfold k1_pay1
  simp only [sitofp, extui, cmpf, addf, broadcast]
  rw [Cert.Stages.sitofp_zext_eq_uitofp, prod_apply, bias_apply]
  rfl

/-! ## From blocks to the array -/

variable (V : (c : Dev nD) → (b : Ref sig .tc) → Buf (Elt Ideal) ((c : Thread nD τ).loc b))

theorem zero2 : (![0, 0] : Fin 2 → Nat) = fun _ => 0 := funext fun a => by fin_cases a <;> rfl

/-- The index maps over the grid: block `t` of the activations and of the output is row block `t`; `Wf` and the bias
    row are one block each. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the spiking layer of the arrays the region finds. -/
theorem flushed_eq (c : Dev nD) (t : Fin cfg1.N) :
    (dat1 (F := Ideal) V c).flushed 3 t
      = ((cfg1.win 3).blk t).view.read (Elt Ideal) (Cert.Stages.spike (F := Ideal) (V c main_v53) (V c main_arg4) (V c main_v54)) := by
  show (cfg1.win 3).cut (grid1.coords t) ((dat1 V c).after 3 t) = _
  rw [after1_3]
  unfold out1_3
  rw [View.canon_unit_zero zero2]
  simp only [View.ld_unit_zero (S := S5000x64) zero2, View.ld_unit_zero (S := S64x64) zero2, View.ld_unit_zero (S := S1x64) zero2]
  obtain ⟨e0, e1, e2, e3, e4, e5, e6, e7⟩ := idx_facts t
  funext j
  show k1_pay1 (F := Ideal) (iblk1 V c 0 t) (iblk1 V c 1 t) (iblk1 V c 2 t) j
    = Cert.Stages.spike (F := Ideal) (V c main_v53) (V c main_arg4) (V c main_v54) (((cfg1.win 3).blk t).view.emb j)
  refine (pay_apply (iblk1 V c 0 t) (iblk1 V c 1 t) (iblk1 V c 2 t) j).trans ?_
  refine Eq.trans ?_ (Cert.Stages.spike_apply _ _ _ _).symm
  have hC : iblk1 V c 2 t (biasAt j) = V c main_v54 (Cert.ReferenceIdeal.Read.idx_main_v57 (((cfg1.win 3).blk t).view.emb j)) := by
    show V c main_v54 (((cfg1.win 2).blk t).view.emb (biasAt j)) = _
    have h2 : ((cfg1.win 2).blk t).view.emb (biasAt j) = Cert.ReferenceIdeal.Read.idx_main_v57 (((cfg1.win 3).blk t).view.emb j) := by
      funext a; apply Fin.ext
      match a with
      | ⟨0, _⟩ => show win1_2.index t (0 : Fin 2) * 1 + 1 * 0 = 0; omega
      | ⟨1, _⟩ => show win1_2.index t (1 : Fin 2) * 64 + 1 * (j 1).val = win1_3.index t (1 : Fin 2) * 64 + 1 * (j 1).val; omega
    rw [h2]
  have hS : (∑ k : Fin 64, FloatOps.maximumf (iblk1 V c 0 t (rowAt j k)) (Ideal.ofBits .f32 0x00000000#32) * iblk1 V c 1 t (colAt j k))
      = ∑ k : Fin 64, FloatOps.maximumf (V c main_v53 (Cert.ReferenceIdeal.Read.lidx_main_v55 (((cfg1.win 3).blk t).view.emb j) k)) (Ideal.ofBits .f32 0x00000000#32)
          * V c main_arg4 (Cert.ReferenceIdeal.Read.ridx_main_v55 (((cfg1.win 3).blk t).view.emb j) k) := by
    refine Finset.sum_congr rfl fun k _ => ?_
    have h0 : ((cfg1.win 0).blk t).view.emb (rowAt j k) = Cert.ReferenceIdeal.Read.lidx_main_v55 (((cfg1.win 3).blk t).view.emb j) k := by
      funext a; apply Fin.ext
      match a with
      | ⟨0, _⟩ => show win1_0.index t (0 : Fin 2) * 5000 + 1 * (j 0).val = win1_3.index t (0 : Fin 2) * 5000 + 1 * (j 0).val; omega
      | ⟨1, _⟩ => show win1_0.index t (1 : Fin 2) * 64 + 1 * k.val = k.val; omega
    have h1 : ((cfg1.win 1).blk t).view.emb (colAt j k) = Cert.ReferenceIdeal.Read.ridx_main_v55 (((cfg1.win 3).blk t).view.emb j) k := by
      funext a; apply Fin.ext
      match a with
      | ⟨0, _⟩ => show win1_1.index t (0 : Fin 2) * 64 + 1 * k.val = k.val; omega
      | ⟨1, _⟩ => show win1_1.index t (1 : Fin 2) * 64 + 1 * (j 1).val = win1_3.index t (1 : Fin 2) * 64 + 1 * (j 1).val; omega
    have hA : iblk1 V c 0 t (rowAt j k) = V c main_v53 (Cert.ReferenceIdeal.Read.lidx_main_v55 (((cfg1.win 3).blk t).view.emb j) k) := by
      show V c main_v53 (((cfg1.win 0).blk t).view.emb (rowAt j k)) = _
      rw [h0]
    have hB : iblk1 V c 1 t (colAt j k) = V c main_arg4 (Cert.ReferenceIdeal.Read.ridx_main_v55 (((cfg1.win 3).blk t).view.emb j) k) := by
      show V c main_arg4 (((cfg1.win 1).blk t).view.emb (colAt j k)) = _
      rw [h1]
    rw [hA, hB]
  rw [hS, hC]

/-- An index is in point `t`'s output block iff its row lies in [5000 t, 5000 t + 5000). -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v55).slice (win1_3.rect t)).set ↔ _
  rw [View.set_slice_whole, Rect.mem_set_unit]
  exact Iff.rfl

/-- Every row is in some point's block: row `r` in block `r / 5000`. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  let t : Fin cfg1.N := ⟨(i 0).val / 5000, by show (i 0).val / 5000 < 20; omega⟩
  obtain ⟨e0, e1, e2, e3, e4, e5, e6, e7⟩ := idx_facts t
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The output array after the region: the spiking layer of the arrays the region finds at the aggregated first layer,
    `Wf` and the bias row. -/
theorem value (c : Dev nD) :
    (dat1 (F := Ideal) V c).arrAt 3 cfg1.N = Cert.Stages.spike (F := Ideal) (V c main_v53) (V c main_arg4) (V c main_v54) :=
  (dat1 (F := Ideal) V c).arrAt_eq_of_cover 3 _ (fun t _ => flushed_eq V c t) (cover)

end Cert.KernelIdeal.Region1

end
-- ==== Proof.Region2.lean ====
/-
  The second dense layer, computed by the row-blocked kernel: at block `t` the kernel multiplies rows
  [5000 t, 5000 t + 5000) of the spike array by the whole `W2`. As for the first layer, a row of a matrix product depends
  only on the same row of the left factor, so block `t` of the output is block `t` of the whole product, and the 20 blocks
  tile the 100000 rows: the output array ends as `spike · W2`, the reference's projection.
-/
import proofs.«176449_j77051713290427_1_alg».proof.Proof.Gen.KernelIdeal.Frame
import proofs.«176449_j77051713290427_1_alg».proof.Proof.Stages
import Idealize.ShloMosaic.PureOps.Ideal.Laws
import Idealize.ShloMosaic.Lib.ValueIdx
import Idealize.ShloMosaic.Lib.Pipeline.Value

set_option maxRecDepth 16384

noncomputable section

namespace Cert.KernelIdeal.Region2

open Idealize.ShloMosaic Idealize.ShloMosaic.TcCoe Idealize.SL.Sem Cert.KernelIdeal Cert.KernelIdeal.Gen
open Idealize.ShloMosaic.Pipeline (Dat)

/-! ## The block product at an index -/

theorem lhs_0 (i : S5000x3.Idx) (q : dot_S5000x64_S64x3_S5000x3_1_0_0_1_n_n.contr.Idx) :
    (dot_S5000x64_S64x3_S5000x3_1_0_0_1_n_n.lhsIdx i q 0).val = (i 0).val := by
  unfold DotDims.lhsIdx
  rw [dif_neg (show ¬(0 : Fin S5000x64.rank) ∈ dot_S5000x64_S64x3_S5000x3_1_0_0_1_n_n.lhsBatch by decide), dif_pos (show (0 : Fin S5000x64.rank) ∈ dot_S5000x64_S64x3_S5000x3_1_0_0_1_n_n.lhsNonContracting by decide)]
  rfl
theorem lhs_1 (i : S5000x3.Idx) (q : dot_S5000x64_S64x3_S5000x3_1_0_0_1_n_n.contr.Idx) :
    (dot_S5000x64_S64x3_S5000x3_1_0_0_1_n_n.lhsIdx i q 1).val = (q ⟨0, by decide⟩).val :=
  dot_S5000x64_S64x3_S5000x3_1_0_0_1_n_n.lhsIdx_val_of_single rfl i q
theorem rhs_0 (i : S5000x3.Idx) (q : dot_S5000x64_S64x3_S5000x3_1_0_0_1_n_n.contr.Idx) :
    (dot_S5000x64_S64x3_S5000x3_1_0_0_1_n_n.rhsIdx i q 0).val = (q ⟨0, by decide⟩).val :=
  dot_S5000x64_S64x3_S5000x3_1_0_0_1_n_n.rhsIdx_val_of_single rfl i q
theorem rhs_1 (i : S5000x3.Idx) (q : dot_S5000x64_S64x3_S5000x3_1_0_0_1_n_n.contr.Idx) :
    (dot_S5000x64_S64x3_S5000x3_1_0_0_1_n_n.rhsIdx i q 1).val = (i 1).val := by
  unfold DotDims.rhsIdx
  rw [dif_neg (show ¬(1 : Fin S64x3.rank) ∈ dot_S5000x64_S64x3_S5000x3_1_0_0_1_n_n.rhsBatch by decide), dif_pos (show (1 : Fin S64x3.rank) ∈ dot_S5000x64_S64x3_S5000x3_1_0_0_1_n_n.rhsNonContracting by decide)]
  rfl

/-- Row `i 0`, unit `k` of the block of spikes. -/
abbrev rowAt (i : S5000x3.Idx) (k : Fin 64) : S5000x64.Idx := fun a => match a with
  | ⟨0, _⟩ => ⟨(i 0).val, (i 0).isLt⟩
  | ⟨1, _⟩ => ⟨k.val, k.isLt⟩
/-- Unit `k`, class `i 1` of `W2`. -/
abbrev colAt (i : S5000x3.Idx) (k : Fin 64) : S64x3.Idx := fun a => match a with
  | ⟨0, _⟩ => ⟨k.val, k.isLt⟩
  | ⟨1, _⟩ => ⟨(i 1).val, (i 1).isLt⟩

/-- The body's stored value at (p, j): the sum over the 64 hidden units of block row p of the spikes times column j of `W2`. -/
theorem pay_apply (x0 : Vec Ideal S5000x64 .f32) (x1 : Vec Ideal S64x3 .f32) (i : S5000x3.Idx) :
    k2_pay1 (F := Ideal) x0 x1 i = ∑ k : Fin 64, x0 (rowAt i k) * x1 (colAt i k) := by
  unfold k2_pay1
  simp only [matmul]
  rw [shapeCast_self, Ideal.matmul_constant_zero_apply, ← Equiv.sum_comp (ValueIdx.contrEquiv1 dot_S5000x64_S64x3_S5000x3_1_0_0_1_n_n 64 rfl rfl).symm]
  refine Finset.sum_congr rfl fun k _ => ?_
  have hk := ValueIdx.contrEquiv1_symm_val dot_S5000x64_S64x3_S5000x3_1_0_0_1_n_n 64 rfl rfl k
  have el : dot_S5000x64_S64x3_S5000x3_1_0_0_1_n_n.lhsIdx i ((ValueIdx.contrEquiv1 dot_S5000x64_S64x3_S5000x3_1_0_0_1_n_n 64 rfl rfl).symm k) = rowAt i k := funext fun a => Fin.ext (by
    match a with
    | ⟨0, _⟩ => exact lhs_0 _ _
    | ⟨1, _⟩ => exact (lhs_1 _ _).trans hk)
  have er : dot_S5000x64_S64x3_S5000x3_1_0_0_1_n_n.rhsIdx i ((ValueIdx.contrEquiv1 dot_S5000x64_S64x3_S5000x3_1_0_0_1_n_n 64 rfl rfl).symm k) = colAt i k := funext fun a => Fin.ext (by
    match a with
    | ⟨0, _⟩ => exact (rhs_0 _ _).trans hk
    | ⟨1, _⟩ => exact rhs_1 _ _)
  rw [el, er]
  rfl

/-! ## From blocks to the array -/

variable (V : (c : Dev nD) → (b : Ref sig .tc) → Buf (Elt Ideal) ((c : Thread nD τ).loc b))

theorem zero2 : (![0, 0] : Fin 2 → Nat) = fun _ => 0 := funext fun a => by fin_cases a <;> rfl

/-- The index maps over the grid: block `t` of the spikes and of the output is row block `t`; `W2` is one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product of the arrays the region finds. -/
theorem flushed_eq (c : Dev nD) (t : Fin cfg2.N) :
    (dat2 (F := Ideal) V c).flushed 2 t
      = ((cfg2.win 2).blk t).view.read (Elt Ideal) (Cert.Stages.project (F := Ideal) (V c main_v55) (V c main_arg6)) := by
  show (cfg2.win 2).cut (grid2.coords t) ((dat2 V c).after 2 t) = _
  rw [after2_2]
  unfold out2_2
  rw [View.canon_unit_zero zero2]
  simp only [View.ld_unit_zero (S := S5000x64) zero2, View.ld_unit_zero (S := S64x3) zero2]
  obtain ⟨e0, e1, e2, e3, e4, e5⟩ := idx_facts t
  funext j
  show k2_pay1 (F := Ideal) (iblk2 V c 0 t) (iblk2 V c 1 t) j
    = Cert.Stages.project (F := Ideal) (V c main_v55) (V c main_arg6) (((cfg2.win 2).blk t).view.emb j)
  refine (pay_apply (iblk2 V c 0 t) (iblk2 V c 1 t) j).trans ?_
  refine Eq.trans ?_ (Cert.Stages.project_apply _ _ _).symm
  refine Finset.sum_congr rfl fun k _ => ?_
  have h0 : ((cfg2.win 0).blk t).view.emb (rowAt j k) = Cert.ReferenceIdeal.Read.lidx_main_v62 (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  have h1 : ((cfg2.win 1).blk t).view.emb (colAt j k) = Cert.ReferenceIdeal.Read.ridx_main_v62 (((cfg2.win 2).blk t).view.emb j) k := by
    funext a; apply Fin.ext
    match a with
    | ⟨0, _⟩ => show win2_1.index t (0 : Fin 2) * 64 + 1 * k.val = k.val; omega
    | ⟨1, _⟩ => show win2_1.index t (1 : Fin 2) * 3 + 1 * (j 1).val = win2_2.index t (1 : Fin 2) * 3 + 1 * (j 1).val; omega
  have hA : iblk2 V c 0 t (rowAt j k) = V c main_v55 (Cert.ReferenceIdeal.Read.lidx_main_v62 (((cfg2.win 2).blk t).view.emb j) k) := by
    show V c main_v55 (((cfg2.win 0).blk t).view.emb (rowAt j k)) = _
    rw [h0]
  have hB : iblk2 V c 1 t (colAt j k) = V c main_arg6 (Cert.ReferenceIdeal.Read.ridx_main_v62 (((cfg2.win 2).blk t).view.emb j) k) := by
    show V c main_arg6 (((cfg2.win 1).blk t).view.emb (colAt j k)) = _
    rw [h1]
  rw [hA, hB]

/-- An index is in point `t`'s output block iff its row lies in [5000 t, 5000 t + 5000). -/
theorem mem_blk (t : Fin cfg2.N) (i : S100000x3.Idx) :
    i ∈ ((cfg2.win 2).blk t).view.set ↔ ∀ a : Fin 2, win2_2.index t a * S5000x3.size a ≤ (i a).val ∧ (i a).val < win2_2.index t a * S5000x3.size a + S5000x3.size a := by
  show i ∈ ((View.whole main_v56).slice (win2_2.rect t)).set ↔ _
  rw [View.set_slice_whole, Rect.mem_set_unit]
  exact Iff.rfl

/-- Every row is in some point's block: row `r` in block `r / 5000`. -/
theorem cover (i : S100000x3.Idx) : ∃ t : Fin cfg2.N, (cfg2.win 2).flush t = true ∧ i ∈ ((cfg2.win 2).blk t).view.set := by
  have hi0 : (i 0).val < 100000 := (i 0).isLt
  have hi1 : (i 1).val < 3 := (i 1).isLt
  let t : Fin cfg2.N := ⟨(i 0).val / 5000, by show (i 0).val / 5000 < 20; omega⟩
  obtain ⟨e0, e1, e2, e3, e4, e5⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 3 ≤ (i 1).val ∧ (i 1).val < win2_2.index t (1 : Fin 2) * 3 + 3; omega

/-- The output array after the region: the projection of the arrays the region finds at the spikes and `W2`. -/
theorem value (c : Dev nD) :
    (dat2 (F := Ideal) V c).arrAt 2 cfg2.N = Cert.Stages.project (F := Ideal) (V c main_v55) (V c main_arg6) :=
  (dat2 (F := Ideal) V c).arrAt_eq_of_cover 2 _ (fun t _ => flushed_eq V c t) (cover)

end Cert.KernelIdeal.Region2

end
-- ==== Proof.HostStretch.lean ====
/-
  The host operations around the three kernels, each stretch as a function of the arrays it reads.

  Both programs do the same graph convolution around their dense layers. From the edge list they build the source and
  destination index vectors with a self-loop per node appended, count each node's in-degree by a scatter-add of ones,
  take `deg^(-1/2)`, and weight edge e by `dinv[src e] · dinv[dst e]`; a layer's features `h` are then gathered at the
  sources, scaled by the edge weights, scatter-added at the destinations, and the bias is added. Between its kernels
  the kernel program runs exactly these operations, so each stretch's results are the reference's own per-operation
  values (the generated `Read.val_…`) once the arrays it starts from are.
  Every lemma is stated from ARBITRARY contents `X` of the buffers, with the arrays the stretch reads named by
  hypotheses, so that it applies at whatever the preceding kernel region leaves.
-/
import proofs.«176449_j77051713290427_1_alg».proof.Proof.Gen.KernelIdeal.Launch
import proofs.«176449_j77051713290427_1_alg».proof.Proof.Stages
import Idealize.ShloMosaic.Lib.StableHlo.Run
import Idealize.ShloMosaic.Lib.Pipeline.Value

set_option maxRecDepth 16384

noncomputable section

namespace Cert.KernelIdeal.HostStretch

open Idealize.ShloMosaic Idealize.ShloMosaic.StableHlo Idealize.ShloMosaic.TcCoe Idealize.SL.Sem Cert.KernelIdeal Cert.KernelIdeal.Gen

variable (X : Valuation τ sig (Elt Ideal))

/-! ## Before the first kernel: the index vectors and the edge weights -/

/-- The source indices with the self-loops appended. -/
theorem src0 (x1 : (⟨Cert.ReferenceIdeal.S2x3200000, .i32⟩ : BufTy).Contents (Elt Ideal)) (h1 : X (Proc.devRef .tc main_arg1) = x1) :
    after (hostOps0 (F := Ideal)) X (Proc.devRef .tc main_v5) = Cert.ReferenceIdeal.Read.val_main_v6 (F := Ideal) x1 := by
  subst h1
  after_results_simp
  rfl

/-- The destination indices with the self-loops appended. -/
theorem dst0 (x1 : (⟨Cert.ReferenceIdeal.S2x3200000, .i32⟩ : BufTy).Contents (Elt Ideal)) (h1 : X (Proc.devRef .tc main_arg1) = x1) :
    after (hostOps0 (F := Ideal)) X (Proc.devRef .tc main_v6) = Cert.ReferenceIdeal.Read.val_main_v7 (F := Ideal) x1 := by
  subst h1
  after_results_simp
  rfl

/-- The edge weights `dinv[src] · dinv[dst]`. -/
theorem norm0 (x1 : (⟨Cert.ReferenceIdeal.S2x3200000, .i32⟩ : BufTy).Contents (Elt Ideal)) (h1 : X (Proc.devRef .tc main_arg1) = x1) :
    after (hostOps0 (F := Ideal)) X (Proc.devRef .tc main_v31) = Cert.ReferenceIdeal.Read.val_main_v32 (F := Ideal) x1 := by
  subst h1
  after_results_simp
  rfl

theorem keep0_arg0 : after (hostOps0 (F := Ideal)) X (Proc.devRef .tc main_arg0) = X (Proc.devRef .tc main_arg0) := by
  after_results_simp <;> rfl
theorem keep0_arg2 : after (hostOps0 (F := Ideal)) X (Proc.devRef .tc main_arg2) = X (Proc.devRef .tc main_arg2) := by
  after_results_simp <;> rfl
theorem keep0_arg3 : after (hostOps0 (F := Ideal)) X (Proc.devRef .tc main_arg3) = X (Proc.devRef .tc main_arg3) := by
  after_results_simp <;> rfl
theorem keep0_arg4 : after (hostOps0 (F := Ideal)) X (Proc.devRef .tc main_arg4) = X (Proc.devRef .tc main_arg4) := by
  after_results_simp <;> rfl
theorem keep0_arg5 : after (hostOps0 (F := Ideal)) X (Proc.devRef .tc main_arg5) = X (Proc.devRef .tc main_arg5) := by
  after_results_simp <;> rfl
theorem keep0_arg6 : after (hostOps0 (F := Ideal)) X (Proc.devRef .tc main_arg6) = X (Proc.devRef .tc main_arg6) := by
  after_results_simp <;> rfl
theorem keep0_arg7 : after (hostOps0 (F := Ideal)) X (Proc.devRef .tc main_arg7) = X (Proc.devRef .tc main_arg7) := by
  after_results_simp <;> rfl
theorem keep0_arg8 : after (hostOps0 (F := Ideal)) X (Proc.devRef .tc main_arg8) = X (Proc.devRef .tc main_arg8) := by
  after_results_simp <;> rfl

/-! ## Between the first and the second kernel: the first aggregation, and the second layer's bias as a row -/

/-- The first layer aggregated over the edges, plus its bias. -/
theorem agg1 (x0 : (⟨Cert.ReferenceIdeal.S100000x40, .f32⟩ : BufTy).Contents (Elt Ideal)) (x1 : (⟨Cert.ReferenceIdeal.S2x3200000, .i32⟩ : BufTy).Contents (Elt Ideal)) (x2 : (⟨Cert.ReferenceIdeal.S40x64, .f32⟩ : BufTy).Contents (Elt Ideal)) (x3 : (⟨Cert.ReferenceIdeal.S64, .f32⟩ : BufTy).Contents (Elt Ideal))
    (h32 : X (Proc.devRef .tc main_v32) = Cert.ReferenceIdeal.Read.val_main_v4 (F := Ideal) x0 x2)
    (h5 : X (Proc.devRef .tc main_v5) = Cert.ReferenceIdeal.Read.val_main_v6 (F := Ideal) x1)
    (h6 : X (Proc.devRef .tc main_v6) = Cert.ReferenceIdeal.Read.val_main_v7 (F := Ideal) x1)
    (h31 : X (Proc.devRef .tc main_v31) = Cert.ReferenceIdeal.Read.val_main_v32 (F := Ideal) x1)
    (h3 : X (Proc.devRef .tc main_arg3) = x3) :
    after (hostOps1 (F := Ideal)) X (Proc.devRef .tc main_v53) = Cert.ReferenceIdeal.Read.val_main_v53 (F := Ideal) x0 x1 x2 x3 := by
  after_results_simp
  rw [h32, h5, h6, h31, h3]
  rfl

/-- A length-64 vector reshaped to [1, 64] is the vector broadcast along a new leading axis: both hold `b[j]` at (0, j). -/
theorem reshape_row (b : (⟨Cert.ReferenceIdeal.S64, .f32⟩ : BufTy).Contents (Elt Ideal)) :
    shapeCast S1x64 b shapeCasts_S64_S1x64 = Cert.ReferenceIdeal.Read.val_main_v56 (F := Ideal) b := by
  funext i
  rw [Cert.ReferenceIdeal.Read.val_main_v56_apply]
  exact shapeCast_apply b shapeCasts_S64_S1x64 i (Cert.ReferenceIdeal.Read.idx_main_v56 i)
    (by rewrite [Shape.rowMajor_val_two, Shape.rowMajor_val_one]; have h0 : (i 0).val < 1 := (i 0).isLt; have h1 : (i 1).val < 64 := (i 1).isLt; show (i 1).val = (i 0).val * 64 + (i 1).val; omega)

/-- The second layer's bias as the [1, 64] row the spiking kernel reads. -/
theorem row1 (x5 : (⟨Cert.ReferenceIdeal.S64, .f32⟩ : BufTy).Contents (Elt Ideal)) (h5 : X (Proc.devRef .tc main_arg5) = x5) :
    after (hostOps1 (F := Ideal)) X (Proc.devRef .tc main_v54) = Cert.ReferenceIdeal.Read.val_main_v56 (F := Ideal) x5 := by
  subst h5
  after_results_simp
  exact reshape_row _

theorem keep1_v5 : after (hostOps1 (F := Ideal)) X (Proc.devRef .tc main_v5) = X (Proc.devRef .tc main_v5) := by
  after_results_simp <;> rfl
theorem keep1_v6 : after (hostOps1 (F := Ideal)) X (Proc.devRef .tc main_v6) = X (Proc.devRef .tc main_v6) := by
  after_results_simp <;> rfl
theorem keep1_v31 : after (hostOps1 (F := Ideal)) X (Proc.devRef .tc main_v31) = X (Proc.devRef .tc main_v31) := by
  after_results_simp <;> rfl
theorem keep1_arg4 : after (hostOps1 (F := Ideal)) X (Proc.devRef .tc main_arg4) = X (Proc.devRef .tc main_arg4) := by
  after_results_simp <;> rfl
theorem keep1_arg6 : after (hostOps1 (F := Ideal)) X (Proc.devRef .tc main_arg6) = X (Proc.devRef .tc main_arg6) := by
  after_results_simp <;> rfl
theorem keep1_arg7 : after (hostOps1 (F := Ideal)) X (Proc.devRef .tc main_arg7) = X (Proc.devRef .tc main_arg7) := by
  after_results_simp <;> rfl
theorem keep1_arg8 : after (hostOps1 (F := Ideal)) X (Proc.devRef .tc main_arg8) = X (Proc.devRef .tc main_arg8) := by
  after_results_simp <;> rfl

/-! ## After the third kernel: the second aggregation and the output filter -/

/-- The second layer aggregated over the edges, plus its bias, times the output filter: the program's result. -/
theorem out3 (x0 : (⟨Cert.ReferenceIdeal.S100000x40, .f32⟩ : BufTy).Contents (Elt Ideal)) (x1 : (⟨Cert.ReferenceIdeal.S2x3200000, .i32⟩ : BufTy).Contents (Elt Ideal)) (x2 : (⟨Cert.ReferenceIdeal.S40x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S64x3, .f32⟩ : BufTy).Contents (Elt Ideal)) (x7 x8 : (⟨Cert.ReferenceIdeal.S3, .f32⟩ : BufTy).Contents (Elt Ideal))
    (h56 : X (Proc.devRef .tc main_v56) = Cert.ReferenceIdeal.Read.val_main_v62 (F := Ideal) x0 x1 x2 x3 x4 x5 x6)
    (h5 : X (Proc.devRef .tc main_v5) = Cert.ReferenceIdeal.Read.val_main_v6 (F := Ideal) x1)
    (h6 : X (Proc.devRef .tc main_v6) = Cert.ReferenceIdeal.Read.val_main_v7 (F := Ideal) x1)
    (h31 : X (Proc.devRef .tc main_v31) = Cert.ReferenceIdeal.Read.val_main_v32 (F := Ideal) x1)
    (h7 : X (Proc.devRef .tc main_arg7) = x7) (h8 : X (Proc.devRef .tc main_arg8) = x8) :
    after (hostOps3 (F := Ideal)) X (Proc.devRef .tc main_v80) = Cert.ReferenceIdeal.Read.val_main_v114 (F := Ideal) x0 x1 x2 x3 x4 x5 x6 x7 x8 := by
  after_results_simp
  rw [h56, h5, h6, h31, h7, h8]
  rfl

end Cert.KernelIdeal.HostStretch

end
-- ==== Proof.Walk.lean ====
/-
  The kernel program's result as a function of its arguments.

  The run's buffer contents at each boundary between a host stretch and a kernel region are followed from the launch to
  the return. After the first stretch the index vectors and the edge weights are the reference's; the first kernel
  leaves `x · W1`; the second stretch aggregates it over the edges and lays the bias out as a row; the second kernel
  leaves the spike array and the third its product with `W2`; the last stretch aggregates again and applies the output
  filter. At every boundary the arrays that later steps read hold the reference's own intermediate values, so the result
  buffer ends at the reference's result term of the argument arrays.
-/
import proofs.«176449_j77051713290427_1_alg».proof.Proof.Gen.KernelIdeal.Frame
import proofs.«176449_j77051713290427_1_alg».proof.Proof.Region0
import proofs.«176449_j77051713290427_1_alg».proof.Proof.Region1
import proofs.«176449_j77051713290427_1_alg».proof.Proof.Region2
import proofs.«176449_j77051713290427_1_alg».proof.Proof.HostStretch

set_option maxRecDepth 16384

noncomputable section

namespace Cert.KernelIdeal.Walk

open Idealize.ShloMosaic Idealize.ShloMosaic.StableHlo Idealize.ShloMosaic.TcCoe Idealize.SL.Sem Cert.KernelIdeal Cert.KernelIdeal.Gen

variable (m : (ℓ : Loc nD τ sig) → Buf (Elt Ideal) ℓ) (ρ : Dev nD → PrngReg) (c : Dev nD)

/-! ## Entering the first kernel -/

theorem W1_arg0 : W1 m ρ c (Proc.devRef .tc main_arg0) = (m ((c : Thread nD τ).loc main_arg0)) := (HostStretch.keep0_arg0 (W0 m ρ c)).trans rfl
theorem W1_arg2 : W1 m ρ c (Proc.devRef .tc main_arg2) = (m ((c : Thread nD τ).loc main_arg2)) := (HostStretch.keep0_arg2 (W0 m ρ c)).trans rfl
theorem W1_arg3 : W1 m ρ c (Proc.devRef .tc main_arg3) = (m ((c : Thread nD τ).loc main_arg3)) := (HostStretch.keep0_arg3 (W0 m ρ c)).trans rfl
theorem W1_arg4 : W1 m ρ c (Proc.devRef .tc main_arg4) = (m ((c : Thread nD τ).loc main_arg4)) := (HostStretch.keep0_arg4 (W0 m ρ c)).trans rfl
theorem W1_arg5 : W1 m ρ c (Proc.devRef .tc main_arg5) = (m ((c : Thread nD τ).loc main_arg5)) := (HostStretch.keep0_arg5 (W0 m ρ c)).trans rfl
theorem W1_arg6 : W1 m ρ c (Proc.devRef .tc main_arg6) = (m ((c : Thread nD τ).loc main_arg6)) := (HostStretch.keep0_arg6 (W0 m ρ c)).trans rfl
theorem W1_arg7 : W1 m ρ c (Proc.devRef .tc main_arg7) = (m ((c : Thread nD τ).loc main_arg7)) := (HostStretch.keep0_arg7 (W0 m ρ c)).trans rfl
theorem W1_arg8 : W1 m ρ c (Proc.devRef .tc main_arg8) = (m ((c : Thread nD τ).loc main_arg8)) := (HostStretch.keep0_arg8 (W0 m ρ c)).trans rfl
theorem W1_src : W1 m ρ c (Proc.devRef .tc main_v5) = Cert.ReferenceIdeal.Read.val_main_v6 (F := Ideal) (m ((c : Thread nD τ).loc main_arg1)) := HostStretch.src0 (W0 m ρ c) (m ((c : Thread nD τ).loc main_arg1)) rfl
theorem W1_dst : W1 m ρ c (Proc.devRef .tc main_v6) = Cert.ReferenceIdeal.Read.val_main_v7 (F := Ideal) (m ((c : Thread nD τ).loc main_arg1)) := HostStretch.dst0 (W0 m ρ c) (m ((c : Thread nD τ).loc main_arg1)) rfl
theorem W1_norm : W1 m ρ c (Proc.devRef .tc main_v31) = Cert.ReferenceIdeal.Read.val_main_v32 (F := Ideal) (m ((c : Thread nD τ).loc main_arg1)) := HostStretch.norm0 (W0 m ρ c) (m ((c : Thread nD τ).loc main_arg1)) rfl

/-! ## Leaving the first kernel -/

/-- The first kernel's output array: `x · W1`. -/
theorem W2_h0 : W2 m ρ c (Proc.devRef .tc main_v32) = Cert.ReferenceIdeal.Read.val_main_v4 (F := Ideal) (m ((c : Thread nD τ).loc main_arg0)) (m ((c : Thread nD τ).loc main_arg2)) := by
  refine (W2_arr m ρ c 2).trans ?_
  rw [Region0.value (V1 m ρ) c]
  show Cert.ReferenceIdeal.Read.val_main_v4 (F := Ideal) (W1 m ρ c (Proc.devRef .tc main_arg0)) (W1 m ρ c (Proc.devRef .tc main_arg2)) = _
  rw [W1_arg0, W1_arg2]

theorem W2_src : W2 m ρ c (Proc.devRef .tc main_v5) = Cert.ReferenceIdeal.Read.val_main_v6 (F := Ideal) (m ((c : Thread nD τ).loc main_arg1)) := (W2_of_ne m ρ c main_v5 (by decide)).trans (W1_src m ρ c)
theorem W2_dst : W2 m ρ c (Proc.devRef .tc main_v6) = Cert.ReferenceIdeal.Read.val_main_v7 (F := Ideal) (m ((c : Thread nD τ).loc main_arg1)) := (W2_of_ne m ρ c main_v6 (by decide)).trans (W1_dst m ρ c)
theorem W2_norm : W2 m ρ c (Proc.devRef .tc main_v31) = Cert.ReferenceIdeal.Read.val_main_v32 (F := Ideal) (m ((c : Thread nD τ).loc main_arg1)) := (W2_of_ne m ρ c main_v31 (by decide)).trans (W1_norm m ρ c)
theorem W2_arg3 : W2 m ρ c (Proc.devRef .tc main_arg3) = (m ((c : Thread nD τ).loc main_arg3)) := (W2_of_ne m ρ c main_arg3 (by decide)).trans (W1_arg3 m ρ c)
theorem W2_arg4 : W2 m ρ c (Proc.devRef .tc main_arg4) = (m ((c : Thread nD τ).loc main_arg4)) := (W2_of_ne m ρ c main_arg4 (by decide)).trans (W1_arg4 m ρ c)
theorem W2_arg5 : W2 m ρ c (Proc.devRef .tc main_arg5) = (m ((c : Thread nD τ).loc main_arg5)) := (W2_of_ne m ρ c main_arg5 (by decide)).trans (W1_arg5 m ρ c)
theorem W2_arg6 : W2 m ρ c (Proc.devRef .tc main_arg6) = (m ((c : Thread nD τ).loc main_arg6)) := (W2_of_ne m ρ c main_arg6 (by decide)).trans (W1_arg6 m ρ c)
theorem W2_arg7 : W2 m ρ c (Proc.devRef .tc main_arg7) = (m ((c : Thread nD τ).loc main_arg7)) := (W2_of_ne m ρ c main_arg7 (by decide)).trans (W1_arg7 m ρ c)
theorem W2_arg8 : W2 m ρ c (Proc.devRef .tc main_arg8) = (m ((c : Thread nD τ).loc main_arg8)) := (W2_of_ne m ρ c main_arg8 (by decide)).trans (W1_arg8 m ρ c)

/-! ## Entering the second kernel -/

/-- The aggregated first layer. -/
theorem W3_agg : W3 m ρ c (Proc.devRef .tc main_v53) = Cert.ReferenceIdeal.Read.val_main_v53 (F := Ideal) (m ((c : Thread nD τ).loc main_arg0)) (m ((c : Thread nD τ).loc main_arg1)) (m ((c : Thread nD τ).loc main_arg2)) (m ((c : Thread nD τ).loc main_arg3)) :=
  HostStretch.agg1 (W2 m ρ c) (m ((c : Thread nD τ).loc main_arg0)) (m ((c : Thread nD τ).loc main_arg1)) (m ((c : Thread nD τ).loc main_arg2)) (m ((c : Thread nD τ).loc main_arg3)) (W2_h0 m ρ c) (W2_src m ρ c) (W2_dst m ρ c) (W2_norm m ρ c) (W2_arg3 m ρ c)
/-- The second layer's bias as a row. -/
theorem W3_row : W3 m ρ c (Proc.devRef .tc main_v54) = Cert.ReferenceIdeal.Read.val_main_v56 (F := Ideal) (m ((c : Thread nD τ).loc main_arg5)) :=
  HostStretch.row1 (W2 m ρ c) (m ((c : Thread nD τ).loc main_arg5)) (W2_arg5 m ρ c)
theorem W3_src : W3 m ρ c (Proc.devRef .tc main_v5) = Cert.ReferenceIdeal.Read.val_main_v6 (F := Ideal) (m ((c : Thread nD τ).loc main_arg1)) := (HostStretch.keep1_v5 (W2 m ρ c)).trans (W2_src m ρ c)
theorem W3_dst : W3 m ρ c (Proc.devRef .tc main_v6) = Cert.ReferenceIdeal.Read.val_main_v7 (F := Ideal) (m ((c : Thread nD τ).loc main_arg1)) := (HostStretch.keep1_v6 (W2 m ρ c)).trans (W2_dst m ρ c)
theorem W3_norm : W3 m ρ c (Proc.devRef .tc main_v31) = Cert.ReferenceIdeal.Read.val_main_v32 (F := Ideal) (m ((c : Thread nD τ).loc main_arg1)) := (HostStretch.keep1_v31 (W2 m ρ c)).trans (W2_norm m ρ c)
theorem W3_arg4 : W3 m ρ c (Proc.devRef .tc main_arg4) = (m ((c : Thread nD τ).loc main_arg4)) := (HostStretch.keep1_arg4 (W2 m ρ c)).trans (W2_arg4 m ρ c)
theorem W3_arg6 : W3 m ρ c (Proc.devRef .tc main_arg6) = (m ((c : Thread nD τ).loc main_arg6)) := (HostStretch.keep1_arg6 (W2 m ρ c)).trans (W2_arg6 m ρ c)
theorem W3_arg7 : W3 m ρ c (Proc.devRef .tc main_arg7) = (m ((c : Thread nD τ).loc main_arg7)) := (HostStretch.keep1_arg7 (W2 m ρ c)).trans (W2_arg7 m ρ c)
theorem W3_arg8 : W3 m ρ c (Proc.devRef .tc main_arg8) = (m ((c : Thread nD τ).loc main_arg8)) := (HostStretch.keep1_arg8 (W2 m ρ c)).trans (W2_arg8 m ρ c)

/-! ## Leaving the second kernel -/

/-- The second kernel's output array: the spikes. -/
theorem W4_spike : W4 m ρ c (Proc.devRef .tc main_v55) = Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_arr m ρ c 3).trans ?_
  rw [Region1.value (V3 m ρ) c, Cert.Stages.val_main_v61_eq]
  show Cert.Stages.spike (F := Ideal) (W3 m ρ c (Proc.devRef .tc main_v53)) (W3 m ρ c (Proc.devRef .tc main_arg4)) (W3 m ρ c (Proc.devRef .tc main_v54)) = _
  rw [W3_agg, W3_arg4, W3_row]

theorem W4_src : W4 m ρ c (Proc.devRef .tc main_v5) = Cert.ReferenceIdeal.Read.val_main_v6 (F := Ideal) (m ((c : Thread nD τ).loc main_arg1)) := (W4_of_ne m ρ c main_v5 (by decide)).trans (W3_src m ρ c)
theorem W4_dst : W4 m ρ c (Proc.devRef .tc main_v6) = Cert.ReferenceIdeal.Read.val_main_v7 (F := Ideal) (m ((c : Thread nD τ).loc main_arg1)) := (W4_of_ne m ρ c main_v6 (by decide)).trans (W3_dst m ρ c)
theorem W4_norm : W4 m ρ c (Proc.devRef .tc main_v31) = Cert.ReferenceIdeal.Read.val_main_v32 (F := Ideal) (m ((c : Thread nD τ).loc main_arg1)) := (W4_of_ne m ρ c main_v31 (by decide)).trans (W3_norm m ρ c)
theorem W4_arg6 : W4 m ρ c (Proc.devRef .tc main_arg6) = (m ((c : Thread nD τ).loc main_arg6)) := (W4_of_ne m ρ c main_arg6 (by decide)).trans (W3_arg6 m ρ c)
theorem W4_arg7 : W4 m ρ c (Proc.devRef .tc main_arg7) = (m ((c : Thread nD τ).loc main_arg7)) := (W4_of_ne m ρ c main_arg7 (by decide)).trans (W3_arg7 m ρ c)
theorem W4_arg8 : W4 m ρ c (Proc.devRef .tc main_arg8) = (m ((c : Thread nD τ).loc main_arg8)) := (W4_of_ne m ρ c main_arg8 (by decide)).trans (W3_arg8 m ρ c)

/-! ## Leaving the third kernel -/

/-- The third kernel's output array: `spike · W2`. -/
theorem W5_h2 : W5 m ρ c (Proc.devRef .tc main_v56) = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W5_arr m ρ c 2).trans ?_
  rw [Region2.value (V4 m ρ) c, Cert.Stages.val_main_v62_eq]
  show Cert.Stages.project (F := Ideal) (W4 m ρ c (Proc.devRef .tc main_v55)) (W4 m ρ c (Proc.devRef .tc main_arg6)) = _
  rw [W4_spike, W4_arg6]

theorem W5_src : W5 m ρ c (Proc.devRef .tc main_v5) = Cert.ReferenceIdeal.Read.val_main_v6 (F := Ideal) (m ((c : Thread nD τ).loc main_arg1)) := (W5_of_ne m ρ c main_v5 (by decide)).trans (W4_src m ρ c)
theorem W5_dst : W5 m ρ c (Proc.devRef .tc main_v6) = Cert.ReferenceIdeal.Read.val_main_v7 (F := Ideal) (m ((c : Thread nD τ).loc main_arg1)) := (W5_of_ne m ρ c main_v6 (by decide)).trans (W4_dst m ρ c)
theorem W5_norm : W5 m ρ c (Proc.devRef .tc main_v31) = Cert.ReferenceIdeal.Read.val_main_v32 (F := Ideal) (m ((c : Thread nD τ).loc main_arg1)) := (W5_of_ne m ρ c main_v31 (by decide)).trans (W4_norm m ρ c)
theorem W5_arg7 : W5 m ρ c (Proc.devRef .tc main_arg7) = (m ((c : Thread nD τ).loc main_arg7)) := (W5_of_ne m ρ c main_arg7 (by decide)).trans (W4_arg7 m ρ c)
theorem W5_arg8 : W5 m ρ c (Proc.devRef .tc main_arg8) = (m ((c : Thread nD τ).loc main_arg8)) := (W5_of_ne m ρ c main_arg8 (by decide)).trans (W4_arg8 m ρ c)

/-! ## The result -/

/-- The result buffer at the return: the reference's result term of the argument arrays. -/
theorem W6_out : W6 m ρ c (Proc.devRef .tc main_v80) = Cert.ReferenceIdeal.Read.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  HostStretch.out3 (W5 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (W5_h2 m ρ c) (W5_src m ρ c) (W5_dst m ρ c) (W5_norm m ρ c) (W5_arg7 m ρ c) (W5_arg8 m ρ c)

end Cert.KernelIdeal.Walk

end
-- ==== Proof.lean ====
/-
  A two-layer graph convolution with a spiking nonlinearity between the layers, over 100000 nodes and 3200000 edges:
      out = (Â · spike(relu(Â · (x · W1) + b1) · Wf + bf ≥ 1/2) · W2 + b2) ⊙ filter,
  where Â is the symmetrically normalised adjacency with self-loops, applied as gather, scale by the edge weights and
  scatter-add. The kernel program computes the three dense products (`x · W1`, the spiking layer, `spike · W2`) in
  row-blocked kernels of 20 blocks of 5000 node rows and everything else by the same host operations as the reference;
  the reference computes the dense products as whole matrix products.

  Why the two agree over the extended reals: a row of a matrix product depends only on the same row of its left factor,
  so a row block of the product is the product of the row block (`Region0`, `Region1`, `Region2`: each kernel's output
  array is the reference's stage applied to the arrays the kernel finds); rounding the factors to bf16 is the identity
  there; the kernel's and the reference's ways of turning a truth value into 0 or 1 give the same number; and the host
  operations around the kernels are the reference's own (`HostStretch`), the edge weights computed once instead of twice.
  Following the buffer contents from the launch to the return (`Walk`) the result buffer ends at the reference's result
  term of the argument arrays. No law used needs the inputs to be finite: every step is an equality of the same sums and
  the same operations, so the precondition is not opened.

  The frames of the two kernel programs are the generated frame certificates; the reference's is its generated run;
  no operation was rewritten by the idealization, so there is nothing to preserve.
-/
import proofs.«176449_j77051713290427_1_alg».proof.Defs
import proofs.«176449_j77051713290427_1_alg».proof.Proof.Gen.Kernel
import proofs.«176449_j77051713290427_1_alg».proof.Proof.Gen.Kernel.Skeleton
import proofs.«176449_j77051713290427_1_alg».proof.Proof.Gen.Kernel.Launch
import proofs.«176449_j77051713290427_1_alg».proof.Proof.Gen.Kernel.Points
import proofs.«176449_j77051713290427_1_alg».proof.Proof.Gen.Kernel.Frame
import proofs.«176449_j77051713290427_1_alg».proof.Proof.Gen.KernelIdeal
import proofs.«176449_j77051713290427_1_alg».proof.Proof.Gen.KernelIdeal.Skeleton
import proofs.«176449_j77051713290427_1_alg».proof.Proof.Gen.KernelIdeal.Launch
import proofs.«176449_j77051713290427_1_alg».proof.Proof.Gen.KernelIdeal.Points
import proofs.«176449_j77051713290427_1_alg».proof.Proof.Gen.KernelIdeal.Frame
import proofs.«176449_j77051713290427_1_alg».proof.Proof.Gen.ReferenceIdeal
import proofs.«176449_j77051713290427_1_alg».proof.Proof.Gen.Pre_finite_inputs
import proofs.«176449_j77051713290427_1_alg».proof.Proof.Gen.ReferenceIdeal.Run
import proofs.«176449_j77051713290427_1_alg».proof.Proof.Gen.ReferenceIdeal.Read
import proofs.«176449_j77051713290427_1_alg».proof.Proof.KernelRun
import proofs.«176449_j77051713290427_1_alg».proof.Proof.Walk
import Idealize.ShloMosaic.Adequacy
import Idealize.ShloMosaic.Init

noncomputable section

namespace Cert.Proof

open Idealize.ShloMosaic Idealize.SL.Sem

/-- The kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the reference's result term of the kernel's argument arrays in their result buffers. -/
theorem algebraic : Cert.algebraic_KernelIdeal_ReferenceIdeal := by
  intro m ρ m' ρ' _ hagree
  refine ⟨fun c => Cert.ReferenceIdeal.Read.val_main_v114 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨(h c).1.trans (Cert.KernelIdeal.Walk.W6_out m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v114_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
